-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x512 : Shape := ⟨2, ![64, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S64x512 .f32) (main_arg9 : FVec F S512 .f32) (main_v33 : IVec S_ 1) : IVec S_ 1 :=
  let main_v34 : FVec F S64x512 .f32 := Host.absf main_arg8
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S32 .f32) (main_arg6 : FVec F S32x64 .f32) (main_arg7 : FVec F S64 .f32) (main_arg8 : FVec F S64x512 .f32) (main_arg9 : FVec F S512 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x1600000 32) (main_arg2 : FVec F S512x64 .f32) (main_arg3 : FVec F S64 .f32) (main_arg4 : FVec F S64x32 .f32) (main_arg5 : FVec F S32 .f32) (main_arg6 : FVec F S32x64 .f32) (main_arg7 : FVec F S64 .f32) (main_arg8 : FVec F S64x512 .f32) (main_arg9 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x512 : Shape := ⟨2, ![64, 512]⟩
abbrev S512 : Shape := ⟨1, ![512]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S5000x512 : Shape := ⟨2, ![5000, 512]⟩
abbrev S5000x64 : Shape := ⟨2, ![5000, 64]⟩
abbrev S1650000x64 : Shape := ⟨2, ![1650000, 64]⟩
abbrev S1x64 : Shape := ⟨2, ![1, 64]⟩
abbrev S50000x32 : Shape := ⟨2, ![50000, 32]⟩
abbrev S5000x32 : Shape := ⟨2, ![5000, 32]⟩
abbrev S1650000x32 : Shape := ⟨2, ![1650000, 32]⟩
abbrev S1x32 : Shape := ⟨2, ![1, 32]⟩
abbrev S1x512 : Shape := ⟨2, ![1, 512]⟩

abbrev nBuf : Space → Nat
  | .hbm => 85
  | .vmem => 32
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x512, .f32⟩
  | .hbm, ⟨9, _⟩ => ⟨S512, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1650000, .i32⟩
  | .hbm, ⟨26, _⟩ => ⟨S1650000, .i1⟩
  | .hbm, ⟨27, _⟩ => ⟨S_, .i32⟩
  | .hbm, ⟨28, _⟩ => ⟨S1650000, .i32⟩
  | .hbm, ⟨29, _⟩ => ⟨S1650000, .i32⟩
  | .hbm, ⟨30, _⟩ => ⟨S1650000, .i32⟩
  | .hbm, ⟨31, _⟩ => ⟨S1650000x1, .i32⟩
  | .hbm, ⟨32, _⟩ => ⟨S1650000, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000, .f32⟩
  | .hbm, ⟨42, _⟩ => ⟨S1650000, .f32⟩
  | .hbm, ⟨43, _⟩ => ⟨S50000x64, .f32⟩
  | .hbm, ⟨44, _⟩ => ⟨S_, .i32⟩
  | .hbm, ⟨45, _⟩ => ⟨S1650000, .i32⟩
  | .hbm, ⟨46, _⟩ => ⟨S1650000, .i1⟩
  | .hbm, ⟨47, _⟩ => ⟨S_, .i32⟩
  | .hbm, ⟨48, _⟩ => ⟨S1650000, .i32⟩
  | .hbm, ⟨49, _⟩ => ⟨S1650000, .i32⟩
  | .hbm, ⟨50, _⟩ => ⟨S1650000, .i32⟩
  | .hbm, ⟨51, _⟩ => ⟨S1650000x1, .i32⟩
  | .hbm, ⟨52, _⟩ => ⟨S1650000x64, .f32⟩
  | .hbm, ⟨53, _⟩ => ⟨S1650000x1, .f32⟩
  | .hbm, ⟨54, _⟩ => ⟨S1650000x64, .f32⟩
  | .hbm, ⟨55, _⟩ => ⟨S1650000x64, .f32⟩
  | .hbm, ⟨56, _⟩ => ⟨S_, .f32⟩
  | .hbm, ⟨57, _⟩ => ⟨S50000x64, .f32⟩
  | .hbm, ⟨58, _⟩ => ⟨S1650000x1, .i32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x32, .f32⟩
  | .hbm, ⟨63, _⟩ => ⟨S_, .i32⟩
  | .hbm, ⟨64, _⟩ => ⟨S1650000, .i32⟩
  | .hbm, ⟨65, _⟩ => ⟨S1650000, .i1⟩
  | .hbm, ⟨66, _⟩ => ⟨S_, .i32⟩
  | .hbm, ⟨67, _⟩ => ⟨S1650000, .i32⟩
  | .hbm, ⟨68, _⟩ => ⟨S1650000, .i32⟩
  | .hbm, ⟨69, _⟩ => ⟨S1650000, .i32⟩
  | .hbm, ⟨70, _⟩ => ⟨S1650000x1, .i32⟩
  | .hbm, ⟨71, _⟩ => ⟨S1650000x32, .f32⟩
  | .hbm, ⟨72, _⟩ => ⟨S1650000x1, .f32⟩
  | .hbm, ⟨73, _⟩ => ⟨S1650000x32, .f32⟩
  | .hbm, ⟨74, _⟩ => ⟨S1650000x32, .f32⟩
  | .hbm, ⟨75, _⟩ => ⟨S_, .f32⟩
  | .hbm, ⟨76, _⟩ => ⟨S50000x32, .f32⟩
  | .hbm, ⟨77, _⟩ => ⟨S1650000x1, .i32⟩
  | .hbm, ⟨78, _⟩ => ⟨S50000x32, .f32⟩
  | .hbm, ⟨79, _⟩ => ⟨S1x32, .f32⟩
  | .hbm, ⟨80, _⟩ => ⟨S50000x32, .f32⟩
  | .hbm, ⟨81, _⟩ => ⟨S1x64, .f32⟩
  | .hbm, ⟨82, _⟩ => ⟨S50000x64, .f32⟩
  | .hbm, ⟨83, _⟩ => ⟨S1x512, .f32⟩
  | .hbm, ⟨84, _⟩ => ⟨S50000x512, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x512, .f32⟩
  | .local _ .vmem, ⟨29, _⟩ => ⟨S1x512, .f32⟩
  | .local _ .vmem, ⟨30, _⟩ => ⟨S5000x512, .f32⟩
  | .local _ .vmem, ⟨31, _⟩ => ⟨S5000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  shapeCasts_S512_S1x512 : S512.ShapeCasts S1x512
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x512_S512x64_S5000x64_1_0_0_1_n_n_wf : DotDims.WF S5000x512 S512x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x32_S5000x32_1_0_0_1_n_n_wf : DotDims.WF S5000x64 S64x32 S5000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S5000x32_S32x64_S5000x64_1_0_0_1_n_n_wf : DotDims.WF S5000x32 S32x64 S5000x64 [1] [0] [0] [1] [] []
  dot_S5000x64_S64x512_S5000x512_1_0_0_1_n_n_wf : DotDims.WF S5000x64 S64x512 S5000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S50000x32.size a
  hwx3_2 : ∀ i : grid3.Coords, EltTy.bits .f32 = 32 ∨ (Rect.block (s := S50000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S50000x32.size a
  hwx4_0 : ∀ i : grid4.Coords, EltTy.bits .f32 = 32 ∨ (Rect.block (s := S50000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x512.size a ≤ S64x512.size a
  hwx5_1 : ∀ i : grid5.Coords, EltTy.bits .f32 = 32 ∨ (Rect.block (s := S64x512) S64x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x512.size a ≤ S50000x512.size a
  hwx5_3 : ∀ i : grid5.Coords, EltTy.bits .f32 = 32 ∨ (Rect.block (s := S50000x512) S5000x512.size (cc5_transform_3 i) (hinb5_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x512_S5000x512_1_0_0_1_n_n : DotDims S5000x64 S64x512 S5000x512 where
  lhsContracting := [1]
  rhsContracting := [0]
  lhsNonContracting := [0]
  rhsNonContracting := [1]
  lhsBatch := []
  rhsBatch := []
  wf := dot_S5000x64_S64x512_S5000x512_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v60) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S5000x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x512 : Shape := ⟨2, ![64, 512]⟩
abbrev S512 : Shape := ⟨1, ![512]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S50000x32 : Shape := ⟨2, ![50000, 32]⟩
abbrev S1650000x32 : Shape := ⟨2, ![1650000, 32]⟩
abbrev S1x32 : Shape := ⟨2, ![1, 32]⟩
abbrev S1x512 : Shape := ⟨2, ![1, 512]⟩

abbrev nBuf : Space → Nat
  | .hbm => 108
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x512, .f32⟩
  | .hbm, ⟨9, _⟩ => ⟨S512, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1650000, .i32⟩
  | .hbm, ⟨26, _⟩ => ⟨S1650000, .i1⟩
  | .hbm, ⟨27, _⟩ => ⟨S_, .i32⟩
  | .hbm, ⟨28, _⟩ => ⟨S1650000, .i32⟩
  | .hbm, ⟨29, _⟩ => ⟨S1650000, .i32⟩
  | .hbm, ⟨30, _⟩ => ⟨S1650000, .i32⟩
  | .hbm, ⟨31, _⟩ => ⟨S1650000x1, .i32⟩
  | .hbm, ⟨32, _⟩ => ⟨S1650000, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000, .f32⟩
  | .hbm, ⟨42, _⟩ => ⟨S1650000, .f32⟩
  | .hbm, ⟨43, _⟩ => ⟨S50000x64, .f32⟩
  | .hbm, ⟨44, _⟩ => ⟨S_, .i32⟩
  | .hbm, ⟨45, _⟩ => ⟨S1650000, .i32⟩
  | .hbm, ⟨46, _⟩ => ⟨S1650000, .i1⟩
  | .hbm, ⟨47, _⟩ => ⟨S_, .i32⟩
  | .hbm, ⟨48, _⟩ => ⟨S1650000, .i32⟩
  | .hbm, ⟨49, _⟩ => ⟨S1650000, .i32⟩
  | .hbm, ⟨50, _⟩ => ⟨S1650000, .i32⟩
  | .hbm, ⟨51, _⟩ => ⟨S1650000x1, .i32⟩
  | .hbm, ⟨52, _⟩ => ⟨S1650000x64, .f32⟩
  | .hbm, ⟨53, _⟩ => ⟨S1650000x1, .f32⟩
  | .hbm, ⟨54, _⟩ => ⟨S1650000x64, .f32⟩
  | .hbm, ⟨55, _⟩ => ⟨S1650000x64, .f32⟩
  | .hbm, ⟨56, _⟩ => ⟨S_, .f32⟩
  | .hbm, ⟨57, _⟩ => ⟨S50000x64, .f32⟩
  | .hbm, ⟨58, _⟩ => ⟨S1650000x1, .i32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S50000x32, .f32⟩
  | .hbm, ⟨67, _⟩ => ⟨S_, .i32⟩
  | .hbm, ⟨68, _⟩ => ⟨S1650000, .i32⟩
  | .hbm, ⟨69, _⟩ => ⟨S1650000, .i1⟩
  | .hbm, ⟨70, _⟩ => ⟨S_, .i32⟩
  | .hbm, ⟨71, _⟩ => ⟨S1650000, .i32⟩
  | .hbm, ⟨72, _⟩ => ⟨S1650000, .i32⟩
  | .hbm, ⟨73, _⟩ => ⟨S1650000, .i32⟩
  | .hbm, ⟨74, _⟩ => ⟨S1650000x1, .i32⟩
  | .hbm, ⟨75, _⟩ => ⟨S1650000x32, .f32⟩
  | .hbm, ⟨76, _⟩ => ⟨S1650000x1, .f32⟩
  | .hbm, ⟨77, _⟩ => ⟨S1650000x32, .f32⟩
  | .hbm, ⟨78, _⟩ => ⟨S1650000x32, .f32⟩
  | .hbm, ⟨79, _⟩ => ⟨S_, .f32⟩
  | .hbm, ⟨80, _⟩ => ⟨S50000x32, .f32⟩
  | .hbm, ⟨81, _⟩ => ⟨S1650000x1, .i32⟩
  | .hbm, ⟨82, _⟩ => ⟨S50000x32, .f32⟩
  | .hbm, ⟨83, _⟩ => ⟨S1x32, .f32⟩
  | .hbm, ⟨84, _⟩ => ⟨S50000x32, .f32⟩
  | .hbm, ⟨85, _⟩ => ⟨S50000x32, .f32⟩
  | .hbm, ⟨86, _⟩ => ⟨S_, .f32⟩
  | .hbm, ⟨87, _⟩ => ⟨S50000x32, .f32⟩
  | .hbm, ⟨88, _⟩ => ⟨S50000x32, .f32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000x64, .f32⟩
  | .hbm, ⟨95, _⟩ => ⟨S50000x64, .f32⟩
  | .hbm, ⟨96, _⟩ => ⟨S50000x512, .f32⟩
  | .hbm, ⟨97, _⟩ => ⟨S1x512, .f32⟩
  | .hbm, ⟨98, _⟩ => ⟨S50000x512, .f32⟩
  | .hbm, ⟨99, _⟩ => ⟨S50000x512, .f32⟩
  | .hbm, ⟨100, _⟩ => ⟨S50000x512, .f32⟩
  | .hbm, ⟨101, _⟩ => ⟨S50000x512, .f32⟩
  | .hbm, ⟨102, _⟩ => ⟨S_, .f32⟩
  | .hbm, ⟨103, _⟩ => ⟨S50000x512, .f32⟩
  | .hbm, ⟨104, _⟩ => ⟨S50000x512, .f32⟩
  | .hbm, ⟨105, _⟩ => ⟨S_, .f32⟩
  | .hbm, ⟨106, _⟩ => ⟨S50000x512, .f32⟩
  | .hbm, ⟨107, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_10 : Ref sig .tc := ⟨.hbm, 102, rfl⟩
abbrev main_v74 : Ref sig .tc := ⟨.hbm, 103, rfl⟩
abbrev main_v75 : Ref sig .tc := ⟨.hbm, 104, rfl⟩
abbrev main_cst_11 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x512_S512x64_S50000x64_1_0_0_1_n_n_wf : DotDims.WF S50000x512 S512x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x32_S50000x32_1_0_0_1_n_n_wf : DotDims.WF S50000x64 S64x32 S50000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x64_S50000x64_1_0_0_1_n_n_wf : DotDims.WF S50000x32 S32x64 S50000x64 [1] [0] [0] [1] [] []
  dot_S50000x64_S64x512_S50000x512_1_0_0_1_n_n_wf : DotDims.WF S50000x64 S64x512 S50000x512 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x512_S50000x512_1_0_0_1_n_n : DotDims S50000x64 S64x512 S50000x512 where
  lhsContracting := [1]
  rhsContracting := [0]
  lhsNonContracting := [0]
  rhsNonContracting := [1]
  lhsBatch := []
  rhsBatch := []
  wf := dot_S50000x64_S64x512_S50000x512_1_0_0_1_n_n_wf

class Facts : Prop extends Facts₀ where

variable [Facts]
-- ==== Proof.Region0.lean ====
import proofs.«116752_j31370441130067_1_alg».proof.Proof.Gen.KernelIdeal.Frame
import proofs.«116752_j31370441130067_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

-- the TensorCore's buffer contents when the region is entered
variable (V : (c : Dev nD) → (b : Ref sig .tc) → Buf (Elt Ideal) ((c : Thread nD τ).loc b))

/-! # Region 0: a row block of `x · W₁`

Grid point `t` (of ten) loads rows `5000 t … 5000 t + 4999` of the left array and the whole right array, multiplies them
into a zero accumulator and writes the product back as the same rows of the result. A change of float format is the
identity on the extended reals and a product into a zero accumulator is the plain sum over the contracted axis, so the
ten blocks together are the whole product `∑ₖ x[r, k] · w[k, q]`, which is what the host's `dot_general` of the two
arrays is, index by index. -/

theorem hz : (![0, 0] : Fin 2 → Nat) = fun _ => 0 := funext fun a => by fin_cases a <;> rfl

/-! ## The block product at an index -/

theorem lhs_0 (j : S5000x64.Idx) (q : dot_S5000x512_S512x64_S5000x64_1_0_0_1_n_n.contr.Idx) :
    (dot_S5000x512_S512x64_S5000x64_1_0_0_1_n_n.lhsIdx j q 0).val = (j 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
theorem lhs_1 (j : S5000x64.Idx) (q : dot_S5000x512_S512x64_S5000x64_1_0_0_1_n_n.contr.Idx) :
    (dot_S5000x512_S512x64_S5000x64_1_0_0_1_n_n.lhsIdx j q 1).val = (q ⟨0, by decide⟩).val :=
  dot_S5000x512_S512x64_S5000x64_1_0_0_1_n_n.lhsIdx_val_of_single rfl j q
theorem rhs_0 (j : S5000x64.Idx) (q : dot_S5000x512_S512x64_S5000x64_1_0_0_1_n_n.contr.Idx) :
    (dot_S5000x512_S512x64_S5000x64_1_0_0_1_n_n.rhsIdx j q 0).val = (q ⟨0, by decide⟩).val :=
  dot_S5000x512_S512x64_S5000x64_1_0_0_1_n_n.rhsIdx_val_of_single rfl j q
theorem rhs_1 (j : S5000x64.Idx) (q : dot_S5000x512_S512x64_S5000x64_1_0_0_1_n_n.contr.Idx) :
    (dot_S5000x512_S512x64_S5000x64_1_0_0_1_n_n.rhsIdx j q 1).val = (j 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-- Row `j 0`, column `k` of the left block. -/
abbrev lrow (j : S5000x64.Idx) (k : Fin 512) : S5000x512.Idx := fun a => match a with
  | ⟨0, _⟩ => ⟨(j 0).val, (j 0).isLt⟩
  | ⟨1, _⟩ => ⟨k.val, k.isLt⟩
/-- Row `k`, column `j 1` of the right array. -/
abbrev rcol (j : S5000x64.Idx) (k : Fin 512) : S512x64.Idx := fun a => match a with
  | ⟨0, _⟩ => ⟨k.val, k.isLt⟩
  | ⟨1, _⟩ => ⟨(j 1).val, (j 1).isLt⟩

/-- The body's stored value at an index of the block: the sum over the contracted axis of the two loaded blocks. -/
theorem pay_apply (x0 : Vec Ideal S5000x512 .f32) (x1 : Vec Ideal S512x64 .f32) (j : S5000x64.Idx) :
    k0_pay1 x0 x1 j = ∑ k : Fin 512, x0 (lrow j k) * x1 (rcol j k) := by
  unfold k0_pay1
  simp only [matmul]
  rw [Ideal.matmul_constant_zero_apply, ← Equiv.sum_comp (ValueIdx.contrEquiv1 dot_S5000x512_S512x64_S5000x64_1_0_0_1_n_n 512 rfl rfl).symm]
  refine Finset.sum_congr rfl fun k _ => ?_
  have hk := ValueIdx.contrEquiv1_symm_val dot_S5000x512_S512x64_S5000x64_1_0_0_1_n_n 512 rfl rfl k
  have el : dot_S5000x512_S512x64_S5000x64_1_0_0_1_n_n.lhsIdx j ((ValueIdx.contrEquiv1 dot_S5000x512_S512x64_S5000x64_1_0_0_1_n_n 512 rfl rfl).symm k) = lrow j k := funext fun a => Fin.ext (by
    match a with
    | ⟨0, _⟩ => exact lhs_0 _ _
    | ⟨1, _⟩ => exact (lhs_1 _ _).trans hk)
  have er : dot_S5000x512_S512x64_S5000x64_1_0_0_1_n_n.rhsIdx j ((ValueIdx.contrEquiv1 dot_S5000x512_S512x64_S5000x64_1_0_0_1_n_n 512 rfl rfl).symm k) = rcol j k := funext fun a => Fin.ext (by
    match a with
    | ⟨0, _⟩ => exact (rhs_0 _ _).trans hk
    | ⟨1, _⟩ => exact rhs_1 _ _)
  rw [el, er]
  rfl

/-! ## The host's product at an index -/

/-- The whole product read at an index: the same sum over the whole arrays. -/
theorem dot_apply (a0 : (⟨Cert.ReferenceIdeal.S50000x512, .f32⟩ : BufTy).Contents (Elt Ideal)) (a2 : (⟨Cert.ReferenceIdeal.S512x64, .f32⟩ : BufTy).Contents (Elt Ideal)) (i : Cert.ReferenceIdeal.S50000x64.Idx) :
    Host.dotGeneral (F := Ideal) (φ₁ := .f32) (φ₂ := .f32) Cert.ReferenceIdeal.dot_S50000x512_S512x64_S50000x64_1_0_0_1_n_n none a0 a2 i = ∑ k : Fin 512, a0 (Cert.ReferenceIdeal.Read.lidx_main_v27 i k) * a2 (Cert.ReferenceIdeal.Read.ridx_main_v27 i k) :=
  Cert.ReferenceIdeal.Read.val_main_v27_apply a0 a2 i

/-! ## The grid's index maps -/

/-- The printed index maps over the ten grid points: the left array's and the result's block row is the point, every
    other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What a point writes back -/

/-- The whole product of the arrays as the region finds them. -/
abbrev G (c : Dev nD) : Cert.ReferenceIdeal.S50000x64.Idx → Elt Ideal .f32 :=
  Host.dotGeneral (F := Ideal) (φ₁ := .f32) (φ₂ := .f32) Cert.ReferenceIdeal.dot_S50000x512_S512x64_S50000x64_1_0_0_1_n_n none (V c main_arg0) (V c main_arg2)

theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  obtain ⟨e0, e1, e2, e3, e4, e5⟩ := idx_facts t
  funext j
  show k0_pay1 (fun y : S5000x512.Idx => V c main_arg0 (((cfg0.win 0).blk t).view.emb y)) (fun y : S512x64.Idx => V c main_arg2 (((cfg0.win 1).blk t).view.emb y)) j
     = Host.dotGeneral (F := Ideal) (φ₁ := .f32) (φ₂ := .f32) Cert.ReferenceIdeal.dot_S50000x512_S512x64_S50000x64_1_0_0_1_n_n none (V c main_arg0) (V c main_arg2) (((cfg0.win 2).blk t).view.emb j)
  rw [pay_apply, dot_apply]
  refine Finset.sum_congr rfl fun k _ => ?_
  have h0 : ((cfg0.win 0).blk t).view.emb (lrow j k) = Cert.ReferenceIdeal.Read.lidx_main_v27 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (rcol j k) = Cert.ReferenceIdeal.Read.ridx_main_v27 (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 64 + 1 * (j 1).val = win0_2.index t (1 : Fin 2) * 64 + 1 * (j 1).val; omega
  rw [h0, h1]

/-! ## The ten blocks cover the array -/

theorem mem_blk (t : Fin cfg0.N) (i : Cert.ReferenceIdeal.S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

theorem cover (i : Cert.ReferenceIdeal.S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  refine ⟨⟨(i 0).val / 5000, by show (i 0).val / 5000 < 10; omega⟩, flush0_2 _, ?_⟩
  rw [mem_blk]
  obtain ⟨e0, e1, e2, e3, e4, e5⟩ := idx_facts ⟨(i 0).val / 5000, by show (i 0).val / 5000 < 10; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e5]; omega

/-! ## The array after the region -/

/-- After region 0 its result array is the host's product of the two arrays the region was entered with. -/
theorem arr (c : Dev nD) :
    (dat0 V c).arrAt 2 cfg0.N = Host.dotGeneral (F := Ideal) (φ₁ := .f32) (φ₂ := .f32) Cert.ReferenceIdeal.dot_S50000x512_S512x64_S50000x64_1_0_0_1_n_n none (V c main_arg0) (V c main_arg2) :=
  (dat0 V c).arrAt_eq_of_cover 2 (G V c) (fun t _ => flushed_eq V c t) (cover)

end Cert.KernelIdeal.Region0

end
-- ==== Proof.Region1.lean ====
import proofs.«116752_j31370441130067_1_alg».proof.Proof.Gen.KernelIdeal.Frame
import proofs.«116752_j31370441130067_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

-- the TensorCore's buffer contents when the region is entered
variable (V : (c : Dev nD) → (b : Ref sig .tc) → Buf (Elt Ideal) ((c : Thread nD τ).loc b))

/-! # Region 1: bias and rectifier on a row block

Grid point `t` (of ten) loads rows `5000 t … 5000 t + 4999` of the aggregated array and the one bias row, adds the bias
row to every loaded row, takes the maximum with the zero word entry by entry and writes the result back as the same rows
of the result array. Entry `(r, q)` of the block depends on entry `(r, q)` of the loaded rows and on entry `(0, q)` of the
bias row only. The host's addition of the bias row spread over all rows, followed by its maximum with the spread zero
word, is the same expression at every index, so the ten blocks together are the host's array. -/

theorem hz : (![0, 0] : Fin 2 → Nat) = fun _ => 0 := funext fun a => by fin_cases a <;> rfl

/-! ## The block's entry at an index -/

/-- Column `j 1` of the one bias row. -/
abbrev bcol (j : S5000x64.Idx) : S1x64.Idx := fun a => match a with
  | ⟨0, _⟩ => ⟨0, Nat.one_pos⟩
  | ⟨1, _⟩ => ⟨(j 1).val, (j 1).isLt⟩

/-- The body's stored value at an index of the block: the loaded entry plus the bias entry of its column, or the zero
    word if that is larger. -/
theorem pay_apply (x0 : Vec Ideal S5000x64 .f32) (x1 : Vec Ideal S1x64 .f32) (j : S5000x64.Idx) :
    k1_pay1 x0 x1 j = max (x0 j + x1 (bcol j)) (Ideal.ofBits .f32 0x00000000#32) := by
  unfold k1_pay1
  simp only [shapeCast_self]
  rw [ValueIdx.maximumf_apply, ValueIdx.addf_apply, ValueIdx.broadcast_apply,
    broadcastTo_apply x1 broadcasts_S1x64_S5000x64 j (bcol j) (fun a => match a with
      | ⟨0, _⟩ => by show 0 = if (1 : Nat) = 1 then 0 else (j _).val; rw [if_pos rfl]
      | ⟨1, _⟩ => by show (j 1).val = if (64 : Nat) = 1 then 0 else (j _).val; rw [if_neg (by decide)]; rfl)]
  rfl

/-! ## The host's entry at an index -/

/-- The host's array read at an index: the same maximum, of the whole aggregated array's entry plus the bias entry of
    its column against the zero word. -/
theorem host_apply (a : (⟨Cert.ReferenceIdeal.S50000x64, .f32⟩ : BufTy).Contents (Elt Ideal)) (b : (⟨Cert.ReferenceIdeal.S1x64, .f32⟩ : BufTy).Contents (Elt Ideal)) (i : Cert.ReferenceIdeal.S50000x64.Idx) :
    maximumf (F := Ideal) (addf a (broadcastInDim Cert.ReferenceIdeal.S50000x64 ![0, 1] Cert.ReferenceIdeal.Facts₀.bcast_S1x64_S50000x64_0_1 b)) (broadcastInDim Cert.ReferenceIdeal.S50000x64 ![] Cert.ReferenceIdeal.Facts₀.bcast_S_S50000x64 (constant (F := Ideal) Cert.ReferenceIdeal.S_ .f32 0x00000000#32)) i
      = max (a i + b (Cert.ReferenceIdeal.Read.idx_main_v42 i)) (Ideal.ofBits .f32 0x00000000#32) := by
  rw [ValueIdx.maximumf_apply, ValueIdx.addf_apply,
    broadcastInDim_apply _ Cert.ReferenceIdeal.Facts₀.bcast_S1x64_S50000x64_0_1 b i (Cert.ReferenceIdeal.Read.idx_main_v42 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)]),
    broadcastInDim_apply _ Cert.ReferenceIdeal.Facts₀.bcast_S_S50000x64 _ i (Cert.ReferenceIdeal.Read.idx_main_call0_v0 i) (fun a => a.elim0),
    ValueIdx.constant_apply]

/-! ## The grid's index maps -/

/-- The printed index maps over the ten grid points: the aggregated array's and the result's block row is the point,
    every other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-! ## What a point writes back -/

/-- The host's array of the arrays as the region finds them. -/
abbrev G (c : Dev nD) : Cert.ReferenceIdeal.S50000x64.Idx → Elt Ideal .f32 :=
  maximumf (F := Ideal) (addf (V c main_v40) (broadcastInDim Cert.ReferenceIdeal.S50000x64 ![0, 1] Cert.ReferenceIdeal.Facts₀.bcast_S1x64_S50000x64_0_1 (V c main_v41))) (broadcastInDim Cert.ReferenceIdeal.S50000x64 ![] Cert.ReferenceIdeal.Facts₀.bcast_S_S50000x64 (constant (F := Ideal) Cert.ReferenceIdeal.S_ .f32 0x00000000#32))

theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts t
  funext j
  show k1_pay1 (fun y : S5000x64.Idx => V c main_v40 (((cfg1.win 0).blk t).view.emb y)) (fun y : S1x64.Idx => V c main_v41 (((cfg1.win 1).blk t).view.emb y)) j
     = maximumf (F := Ideal) (addf (V c main_v40) (broadcastInDim Cert.ReferenceIdeal.S50000x64 ![0, 1] Cert.ReferenceIdeal.Facts₀.bcast_S1x64_S50000x64_0_1 (V c main_v41))) (broadcastInDim Cert.ReferenceIdeal.S50000x64 ![] Cert.ReferenceIdeal.Facts₀.bcast_S_S50000x64 (constant (F := Ideal) Cert.ReferenceIdeal.S_ .f32 0x00000000#32)) (((cfg1.win 2).blk t).view.emb j)
  rw [pay_apply, host_apply]
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (bcol j) = Cert.ReferenceIdeal.Read.idx_main_v42 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-! ## The ten blocks cover the array -/

theorem mem_blk (t : Fin cfg1.N) (i : Cert.ReferenceIdeal.S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v42).slice (win1_2.rect t)).set ↔ _
  rw [View.set_slice_whole, Rect.mem_set_unit]
  exact Iff.rfl

theorem cover (i : Cert.ReferenceIdeal.S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  refine ⟨⟨(i 0).val / 5000, by show (i 0).val / 5000 < 10; omega⟩, flush1_2 _, ?_⟩
  rw [mem_blk]
  obtain ⟨e0, e1, e2, e3, e4, e5⟩ := idx_facts ⟨(i 0).val / 5000, by show (i 0).val / 5000 < 10; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 64 ≤ (i 1).val ∧ (i 1).val < win1_2.index _ (1 : Fin 2) * 64 + 64; rw [e5]; omega

/-! ## The array after the region -/

/-- After region 1 its result array is the host's bias addition and rectifier of the two arrays the region was entered
    with. -/
theorem arr (c : Dev nD) :
    (dat1 V c).arrAt 2 cfg1.N = maximumf (F := Ideal) (addf (V c main_v40) (broadcastInDim Cert.ReferenceIdeal.S50000x64 ![0, 1] Cert.ReferenceIdeal.Facts₀.bcast_S1x64_S50000x64_0_1 (V c main_v41))) (broadcastInDim Cert.ReferenceIdeal.S50000x64 ![] Cert.ReferenceIdeal.Facts₀.bcast_S_S50000x64 (constant (F := Ideal) Cert.ReferenceIdeal.S_ .f32 0x00000000#32)) :=
  (dat1 V c).arrAt_eq_of_cover 2 (G V c) (fun t _ => flushed_eq V c t) (cover)

end Cert.KernelIdeal.Region1

end
-- ==== Proof.Region2.lean ====
import proofs.«116752_j31370441130067_1_alg».proof.Proof.Gen.KernelIdeal.Frame
import proofs.«116752_j31370441130067_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen

-- the TensorCore's buffer contents when the region is entered
variable (V : (c : Dev nD) → (b : Ref sig .tc) → Buf (Elt Ideal) ((c : Thread nD τ).loc b))

/-! # Region 2: a row block of `h · W₂`

Here `h` is the 50000 × 64 array of hidden features the region is entered with and `W₂` the 64 × 32 weight array. Grid
point `t` (of ten) takes rows `5000 t … 5000 t + 4999` of `h` and all of `W₂`, and writes back the same rows of the
50000 × 32 result. Entry `(r, q)` of a block depends on row `r` of the left block and column `q` of `W₂` only: it is
`∑ₖ h[5000 t + r, k] · W₂[k, q]` over the 64 contracted positions. On the way the left block is reshaped to its own shape,
which moves no entry; both blocks change float format, which is the identity on the extended reals; and the product is
added to a zero accumulator, which leaves the plain sum. The host's `dot_general` of the two whole arrays is the same sum at
every index, and the ten row blocks partition the 50000 rows, so the result array is that product. -/

/-- The two-entry offset `(0, 0)` is the constant zero offset. -/
theorem zero_off : (![0, 0] : Fin 2 → Nat) = fun _ => 0 := funext fun a => by fin_cases a <;> rfl

/-! ## One entry of a block product -/

/-- The left operand of the block product is read at the output's row … -/
theorem lhs_row (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- … and at the contracted position as its column. -/
theorem lhs_col (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
/-- The right operand is read at the contracted position as its row … -/
theorem rhs_row (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
/-- … and at the output's column. -/
theorem rhs_col (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Position `(j 0, k)` of the 5000 × 64 left block: the output's row, contracted position `k`. -/
abbrev hpos (j : S5000x32.Idx) (k : Fin 64) : S5000x64.Idx := fun a => match a with
  | ⟨0, _⟩ => ⟨(j 0).val, (j 0).isLt⟩
  | ⟨1, _⟩ => ⟨k.val, k.isLt⟩
/-- Position `(k, j 1)` of the 64 × 32 weight array: contracted position `k`, the output's column. -/
abbrev wpos (j : S5000x32.Idx) (k : Fin 64) : S64x32.Idx := fun a => match a with
  | ⟨0, _⟩ => ⟨k.val, k.isLt⟩
  | ⟨1, _⟩ => ⟨(j 1).val, (j 1).isLt⟩

/-- The value the body stores at an index of the block: the 64-term sum of products of the two loaded blocks. The
    reshape of the left block to its own shape drops out, the format changes are the identity, the accumulator is zero. -/
theorem pay_apply (x0 : Vec Ideal S5000x64 .f32) (x1 : Vec Ideal S64x32 .f32) (j : S5000x32.Idx) :
    k2_pay1 x0 x1 j = ∑ k : Fin 64, x0 (hpos j k) * x1 (wpos j k) := by
  unfold k2_pay1
  simp only [matmul, shapeCast_self]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx j ((ValueIdx.contrEquiv1 dot_S5000x64_S64x32_S5000x32_1_0_0_1_n_n 64 rfl rfl).symm k) = hpos j k := funext fun a => Fin.ext (by
    match a with
    | ⟨0, _⟩ => exact lhs_row _ _
    | ⟨1, _⟩ => exact (lhs_col _ _).trans hk)
  have er : dot_S5000x64_S64x32_S5000x32_1_0_0_1_n_n.rhsIdx j ((ValueIdx.contrEquiv1 dot_S5000x64_S64x32_S5000x32_1_0_0_1_n_n 64 rfl rfl).symm k) = wpos j k := funext fun a => Fin.ext (by
    match a with
    | ⟨0, _⟩ => exact (rhs_row _ _).trans hk
    | ⟨1, _⟩ => exact rhs_col _ _)
  rw [el, er]
  rfl

/-! ## One entry of the host's product -/

/-- The host's product of ANY 50000 × 64 array with ANY 64 × 32 array, read at an index: row `i 0` of the first against
    column `i 1` of the second, summed over the 64 contracted positions. -/
theorem dot_apply (a0 : (⟨Cert.ReferenceIdeal.S50000x64, .f32⟩ : BufTy).Contents (Elt Ideal)) (a2 : (⟨Cert.ReferenceIdeal.S64x32, .f32⟩ : BufTy).Contents (Elt Ideal)) (i : Cert.ReferenceIdeal.S50000x32.Idx) :
    Host.dotGeneral (F := Ideal) (φ₁ := .f32) (φ₂ := .f32) Cert.ReferenceIdeal.dot_S50000x64_S64x32_S50000x32_1_0_0_1_n_n none a0 a2 i = ∑ k : Fin 64, a0 (Cert.ReferenceIdeal.Read.lidx_main_v45 i k) * a2 (Cert.ReferenceIdeal.Read.ridx_main_v45 i k) := by
  simp only [Host.dotGeneral]
  rw [Ideal.dotGeneral_apply, ← Equiv.sum_comp (ValueIdx.contrEquiv1 Cert.ReferenceIdeal.dot_S50000x64_S64x32_S50000x32_1_0_0_1_n_n 64 rfl rfl).symm]
  refine Finset.sum_congr rfl fun k _ => ?_
  have hk := ValueIdx.contrEquiv1_symm_val Cert.ReferenceIdeal.dot_S50000x64_S64x32_S50000x32_1_0_0_1_n_n 64 rfl rfl k
  have el : Cert.ReferenceIdeal.dot_S50000x64_S64x32_S50000x32_1_0_0_1_n_n.lhsIdx i ((ValueIdx.contrEquiv1 Cert.ReferenceIdeal.dot_S50000x64_S64x32_S50000x32_1_0_0_1_n_n 64 rfl rfl).symm k) = Cert.ReferenceIdeal.Read.lidx_main_v45 i k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : Cert.ReferenceIdeal.dot_S50000x64_S64x32_S50000x32_1_0_0_1_n_n.rhsIdx i ((ValueIdx.contrEquiv1 Cert.ReferenceIdeal.dot_S50000x64_S64x32_S50000x32_1_0_0_1_n_n 64 rfl rfl).symm k) = Cert.ReferenceIdeal.Read.ridx_main_v45 i k := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er]

/-! ## Which block each grid point takes -/

/-- The printed index maps at each of the ten grid points: the block row of `h` and of the result is the point itself,
    the block column of each is zero, and `W₂` is always taken at block `(0, 0)`, that is, whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-! ## What a point writes back -/

/-- The host's product `h · W₂` of the two arrays as the region finds them. -/
abbrev HW (c : Dev nD) : Cert.ReferenceIdeal.S50000x32.Idx → Elt Ideal .f32 :=
  Host.dotGeneral (F := Ideal) (φ₁ := .f32) (φ₂ := .f32) Cert.ReferenceIdeal.dot_S50000x64_S64x32_S50000x32_1_0_0_1_n_n none (V c main_v42) (V c main_arg4)

/-- What point `t` writes back is rows `5000 t … 5000 t + 4999` of `h · W₂`: entry `(r, q)` of the block and entry
    `(5000 t + r, q)` of the whole product are the same 64-term sum, since the left block's row `r` is row `5000 t + r` of
    `h` and the right block is all of `W₂`. -/
theorem flushed_eq (c : Dev nD) (t : Fin cfg2.N) :
    (dat2 V c).flushed 2 t = ((cfg2.win 2).blk t).view.read (Elt Ideal) (HW V c) := by
  show (cfg2.win 2).cut (grid2.coords t) ((dat2 V c).after 2 t) = _
  rw [after2_2]
  unfold out2_2
  rw [View.canon_unit_zero zero_off]
  simp only [View.ld_unit_zero (S := S5000x64) zero_off, View.ld_unit_zero (S := S64x32) zero_off]
  obtain ⟨e0, e1, e2, e3, e4, e5⟩ := idx_facts t
  funext j
  show k2_pay1 (fun y : S5000x64.Idx => V c main_v42 (((cfg2.win 0).blk t).view.emb y)) (fun y : S64x32.Idx => V c main_arg4 (((cfg2.win 1).blk t).view.emb y)) j
     = Host.dotGeneral (F := Ideal) (φ₁ := .f32) (φ₂ := .f32) Cert.ReferenceIdeal.dot_S50000x64_S64x32_S50000x32_1_0_0_1_n_n none (V c main_v42) (V c main_arg4) (((cfg2.win 2).blk t).view.emb j)
  rw [pay_apply, dot_apply]
  refine Finset.sum_congr rfl fun k _ => ?_
  have h0 : ((cfg2.win 0).blk t).view.emb (hpos j k) = Cert.ReferenceIdeal.Read.lidx_main_v45 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (wpos j k) = Cert.ReferenceIdeal.Read.ridx_main_v45 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  rw [h0, h1]

/-! ## The ten row blocks partition the result -/

/-- An index of the result lies in point `t`'s block exactly when each coordinate lies in the block's span on its axis. -/
theorem mem_blk (t : Fin cfg2.N) (i : Cert.ReferenceIdeal.S50000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v43).slice (win2_2.rect t)).set ↔ _
  rw [View.set_slice_whole, Rect.mem_set_unit]
  exact Iff.rfl

/-- Row `r` of the result lies in block `r / 5000`, which is written back; its 32 columns are the block's. -/
theorem cover (i : Cert.ReferenceIdeal.S50000x32.Idx) :
    ∃ t : Fin cfg2.N, (cfg2.win 2).flush t = true ∧ i ∈ ((cfg2.win 2).blk t).view.set := by
  have hi0 : (i 0).val < 50000 := (i 0).isLt
  have hi1 : (i 1).val < 32 := (i 1).isLt
  refine ⟨⟨(i 0).val / 5000, by show (i 0).val / 5000 < 10; omega⟩, flush2_2 _, ?_⟩
  rw [mem_blk]
  obtain ⟨e0, e1, e2, e3, e4, e5⟩ := idx_facts ⟨(i 0).val / 5000, by show (i 0).val / 5000 < 10; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 32 ≤ (i 1).val ∧ (i 1).val < win2_2.index _ (1 : Fin 2) * 32 + 32; rw [e5]; omega

/-! ## The array after the region -/

/-- After region 2 its result array is the host's product of the two arrays the region was entered with. -/
theorem arr (c : Dev nD) :
    (dat2 V c).arrAt 2 cfg2.N = Host.dotGeneral (F := Ideal) (φ₁ := .f32) (φ₂ := .f32) Cert.ReferenceIdeal.dot_S50000x64_S64x32_S50000x32_1_0_0_1_n_n none (V c main_v42) (V c main_arg4) :=
  (dat2 V c).arrAt_eq_of_cover 2 (HW V c) (fun t _ => flushed_eq V c t) (cover)

end Cert.KernelIdeal.Region2

end
-- ==== Proof.Region3.lean ====
import proofs.«116752_j31370441130067_1_alg».proof.Proof.Gen.KernelIdeal.Frame
import proofs.«116752_j31370441130067_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region3

open Cert.KernelIdeal Cert.KernelIdeal.Gen

-- the TensorCore's buffer contents when the region is entered
variable (V : (c : Dev nD) → (b : Ref sig .tc) → Buf (Elt Ideal) ((c : Thread nD τ).loc b))

/-! # Region 3: bias and rectifier on a row block

Grid point `t` (of ten) loads rows `5000 t … 5000 t + 4999` of the aggregated array and the one bias row, adds the bias
row to every loaded row, takes the maximum with the zero word entry by entry and writes the result back as the same rows
of the result array. Entry `(r, q)` of the block depends on entry `(r, q)` of the loaded rows and on entry `(0, q)` of the
bias row only. The host's addition of the bias row spread over all rows, followed by its maximum with the spread zero
word, is the same expression at every index, so the ten blocks together are the host's array. -/

theorem hz : (![0, 0] : Fin 2 → Nat) = fun _ => 0 := funext fun a => by fin_cases a <;> rfl

/-! ## The block's entry at an index -/

/-- Column `j 1` of the one bias row. -/
abbrev bcol (j : S5000x32.Idx) : S1x32.Idx := fun a => match a with
  | ⟨0, _⟩ => ⟨0, Nat.one_pos⟩
  | ⟨1, _⟩ => ⟨(j 1).val, (j 1).isLt⟩

/-- The body's stored value at an index of the block: the loaded entry plus the bias entry of its column, or the zero
    word if that is larger. -/
theorem pay_apply (x0 : Vec Ideal S5000x32 .f32) (x1 : Vec Ideal S1x32 .f32) (j : S5000x32.Idx) :
    k3_pay1 x0 x1 j = max (x0 j + x1 (bcol j)) (Ideal.ofBits .f32 0x00000000#32) := by
  unfold k3_pay1
  simp only [shapeCast_self]
  rw [ValueIdx.maximumf_apply, ValueIdx.addf_apply, ValueIdx.broadcast_apply,
    broadcastTo_apply x1 broadcasts_S1x32_S5000x32 j (bcol j) (fun a => match a with
      | ⟨0, _⟩ => by show 0 = if (1 : Nat) = 1 then 0 else (j _).val; rw [if_pos rfl]
      | ⟨1, _⟩ => by show (j 1).val = if (32 : Nat) = 1 then 0 else (j _).val; rw [if_neg (by decide)]; rfl)]
  rfl

/-! ## The host's entry at an index -/

/-- The host's array read at an index: the same maximum, of the whole aggregated array's entry plus the bias entry of
    its column against the zero word. -/
theorem host_apply (a : (⟨Cert.ReferenceIdeal.S50000x32, .f32⟩ : BufTy).Contents (Elt Ideal)) (b : (⟨Cert.ReferenceIdeal.S1x32, .f32⟩ : BufTy).Contents (Elt Ideal)) (i : Cert.ReferenceIdeal.S50000x32.Idx) :
    maximumf (F := Ideal) (addf a (broadcastInDim Cert.ReferenceIdeal.S50000x32 ![0, 1] Cert.ReferenceIdeal.Facts₀.bcast_S1x32_S50000x32_0_1 b)) (broadcastInDim Cert.ReferenceIdeal.S50000x32 ![] Cert.ReferenceIdeal.Facts₀.bcast_S_S50000x32 (constant (F := Ideal) Cert.ReferenceIdeal.S_ .f32 0x00000000#32)) i
      = max (a i + b (Cert.ReferenceIdeal.Read.idx_main_v60 i)) (Ideal.ofBits .f32 0x00000000#32) := by
  rw [ValueIdx.maximumf_apply, ValueIdx.addf_apply,
    broadcastInDim_apply _ Cert.ReferenceIdeal.Facts₀.bcast_S1x32_S50000x32_0_1 b i (Cert.ReferenceIdeal.Read.idx_main_v60 i) (fun a => match a with
      | ⟨0, _⟩ => by show 0 = if (1 : Nat) = 1 then 0 else (i 0).val; rw [if_pos rfl]
      | ⟨1, _⟩ => by show (i 1).val = if (32 : Nat) = 1 then 0 else (i 1).val; rw [if_neg (by decide)]),
    broadcastInDim_apply _ Cert.ReferenceIdeal.Facts₀.bcast_S_S50000x32 _ i (Cert.ReferenceIdeal.Read.idx_main_call1_v0 i) (fun a => a.elim0),
    ValueIdx.constant_apply]

/-! ## The grid's index maps -/

/-- The printed index maps over the ten grid points: the aggregated array's and the result's block row is the point,
    every other block index is zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-! ## What a point writes back -/

/-- The host's array of the arrays as the region finds them. -/
abbrev G (c : Dev nD) : Cert.ReferenceIdeal.S50000x32.Idx → Elt Ideal .f32 :=
  maximumf (F := Ideal) (addf (V c main_v56) (broadcastInDim Cert.ReferenceIdeal.S50000x32 ![0, 1] Cert.ReferenceIdeal.Facts₀.bcast_S1x32_S50000x32_0_1 (V c main_v57))) (broadcastInDim Cert.ReferenceIdeal.S50000x32 ![] Cert.ReferenceIdeal.Facts₀.bcast_S_S50000x32 (constant (F := Ideal) Cert.ReferenceIdeal.S_ .f32 0x00000000#32))

theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S5000x32) hz, View.ld_unit_zero (S := S1x32) hz]
  obtain ⟨e0, e1, e2, e3, e4, e5⟩ := idx_facts t
  funext j
  show k3_pay1 (fun y : S5000x32.Idx => V c main_v56 (((cfg3.win 0).blk t).view.emb y)) (fun y : S1x32.Idx => V c main_v57 (((cfg3.win 1).blk t).view.emb y)) j
     = maximumf (F := Ideal) (addf (V c main_v56) (broadcastInDim Cert.ReferenceIdeal.S50000x32 ![0, 1] Cert.ReferenceIdeal.Facts₀.bcast_S1x32_S50000x32_0_1 (V c main_v57))) (broadcastInDim Cert.ReferenceIdeal.S50000x32 ![] Cert.ReferenceIdeal.Facts₀.bcast_S_S50000x32 (constant (F := Ideal) Cert.ReferenceIdeal.S_ .f32 0x00000000#32)) (((cfg3.win 2).blk t).view.emb j)
  rw [pay_apply, host_apply]
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb (bcol j) = Cert.ReferenceIdeal.Read.idx_main_v60 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  rw [h0, h1]

/-! ## The ten blocks cover the array -/

theorem mem_blk (t : Fin cfg3.N) (i : Cert.ReferenceIdeal.S50000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v58).slice (win3_2.rect t)).set ↔ _
  rw [View.set_slice_whole, Rect.mem_set_unit]
  exact Iff.rfl

theorem cover (i : Cert.ReferenceIdeal.S50000x32.Idx) :
    ∃ t : Fin cfg3.N, (cfg3.win 2).flush t = true ∧ i ∈ ((cfg3.win 2).blk t).view.set := by
  have hi0 : (i 0).val < 50000 := (i 0).isLt
  have hi1 : (i 1).val < 32 := (i 1).isLt
  refine ⟨⟨(i 0).val / 5000, by show (i 0).val / 5000 < 10; omega⟩, flush3_2 _, ?_⟩
  rw [mem_blk]
  obtain ⟨e0, e1, e2, e3, e4, e5⟩ := idx_facts ⟨(i 0).val / 5000, by show (i 0).val / 5000 < 10; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 32 ≤ (i 1).val ∧ (i 1).val < win3_2.index _ (1 : Fin 2) * 32 + 32; rw [e5]; omega

/-! ## The array after the region -/

/-- After region 3 its result array is the host's bias addition and rectifier of the two arrays the region was entered
    with. -/
theorem arr (c : Dev nD) :
    (dat3 V c).arrAt 2 cfg3.N = maximumf (F := Ideal) (addf (V c main_v56) (broadcastInDim Cert.ReferenceIdeal.S50000x32 ![0, 1] Cert.ReferenceIdeal.Facts₀.bcast_S1x32_S50000x32_0_1 (V c main_v57))) (broadcastInDim Cert.ReferenceIdeal.S50000x32 ![] Cert.ReferenceIdeal.Facts₀.bcast_S_S50000x32 (constant (F := Ideal) Cert.ReferenceIdeal.S_ .f32 0x00000000#32)) :=
  (dat3 V c).arrAt_eq_of_cover 2 (G V c) (fun t _ => flushed_eq V c t) (cover)

end Cert.KernelIdeal.Region3

end
-- ==== Proof.Region4.lean ====
import proofs.«116752_j31370441130067_1_alg».proof.Proof.Gen.KernelIdeal.Frame
import proofs.«116752_j31370441130067_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region4

open Cert.KernelIdeal Cert.KernelIdeal.Gen

-- the TensorCore's buffer contents when the region is entered
variable (V : (c : Dev nD) → (b : Ref sig .tc) → Buf (Elt Ideal) ((c : Thread nD τ).loc b))

/-! # Region 4: a row block of `max (h · W + b) 0`

Grid point `t` (of ten) loads rows `5000 t … 5000 t + 4999` of the hidden features, the whole weight array and the one
bias row; it multiplies the first two into a zero accumulator, adds the bias row to every row of the product, takes the
maximum with zero, and writes the result back as the same rows of the result array. A cast between equal shapes and a
change of float format are the identity on the extended reals, a product into a zero accumulator is the plain sum over
the contracted axis, and a row spread over many rows reads, at an index, the row's entry in the index's column. So entry
`(r, q)` of the ten blocks together is `max ((∑ₖ h[r, k] · w[k, q]) + b[0, q]) 0`, which is what the host's
`dot_general`, its two broadcasts, its sum and its maximum make of the three arrays, index by index. -/

theorem hz : (![0, 0] : Fin 2 → Nat) = fun _ => 0 := funext fun a => by fin_cases a <;> rfl

/-! ## The block's entry at an index -/

theorem lhs_0 (j : S5000x64.Idx) (q : dot_S5000x32_S32x64_S5000x64_1_0_0_1_n_n.contr.Idx) :
    (dot_S5000x32_S32x64_S5000x64_1_0_0_1_n_n.lhsIdx j q 0).val = (j 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs_1 (j : S5000x64.Idx) (q : dot_S5000x32_S32x64_S5000x64_1_0_0_1_n_n.contr.Idx) :
    (dot_S5000x32_S32x64_S5000x64_1_0_0_1_n_n.lhsIdx j q 1).val = (q ⟨0, by decide⟩).val :=
  dot_S5000x32_S32x64_S5000x64_1_0_0_1_n_n.lhsIdx_val_of_single rfl j q
theorem rhs_0 (j : S5000x64.Idx) (q : dot_S5000x32_S32x64_S5000x64_1_0_0_1_n_n.contr.Idx) :
    (dot_S5000x32_S32x64_S5000x64_1_0_0_1_n_n.rhsIdx j q 0).val = (q ⟨0, by decide⟩).val :=
  dot_S5000x32_S32x64_S5000x64_1_0_0_1_n_n.rhsIdx_val_of_single rfl j q
theorem rhs_1 (j : S5000x64.Idx) (q : dot_S5000x32_S32x64_S5000x64_1_0_0_1_n_n.contr.Idx) :
    (dot_S5000x32_S32x64_S5000x64_1_0_0_1_n_n.rhsIdx j q 1).val = (j 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- Row `j 0`, column `k` of the block of hidden features. -/
abbrev lrow (j : S5000x64.Idx) (k : Fin 32) : S5000x32.Idx := fun a => match a with
  | ⟨0, _⟩ => ⟨(j 0).val, (j 0).isLt⟩
  | ⟨1, _⟩ => ⟨k.val, k.isLt⟩
/-- Row `k`, column `j 1` of the weights. -/
abbrev rcol (j : S5000x64.Idx) (k : Fin 32) : S32x64.Idx := fun a => match a with
  | ⟨0, _⟩ => ⟨k.val, k.isLt⟩
  | ⟨1, _⟩ => ⟨(j 1).val, (j 1).isLt⟩
/-- Column `j 1` of the one bias row. -/
abbrev brow (j : S5000x64.Idx) : S1x64.Idx := fun a => match a with
  | ⟨0, _⟩ => ⟨0, Nat.one_pos⟩
  | ⟨1, _⟩ => ⟨(j 1).val, (j 1).isLt⟩

/-- The block product at an index: the sum over the 32 contracted columns. -/
theorem mm_apply (x0 : Vec Ideal S5000x32 .f32) (x1 : Vec Ideal S32x64 .f32) (j : S5000x64.Idx) :
    FloatOps.matmul (F := Ideal) dot_S5000x32_S32x64_S5000x64_1_0_0_1_n_n none (truncf .bf16 x0 bitsLt_bf16_f32) (truncf .bf16 x1 bitsLt_bf16_f32) (constant S5000x64 .f32 0x00000000#32) j
      = ∑ k : Fin 32, x0 (lrow j k) * x1 (rcol j k) := by
  rw [Ideal.matmul_constant_zero_apply, ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx j ((ValueIdx.contrEquiv1 dot_S5000x32_S32x64_S5000x64_1_0_0_1_n_n 32 rfl rfl).symm k) = lrow j k := funext fun a => Fin.ext (by
    match a with
    | ⟨0, _⟩ => exact lhs_0 _ _
    | ⟨1, _⟩ => exact (lhs_1 _ _).trans hk)
  have er : dot_S5000x32_S32x64_S5000x64_1_0_0_1_n_n.rhsIdx j ((ValueIdx.contrEquiv1 dot_S5000x32_S32x64_S5000x64_1_0_0_1_n_n 32 rfl rfl).symm k) = rcol j k := funext fun a => Fin.ext (by
    match a with
    | ⟨0, _⟩ => exact (rhs_0 _ _).trans hk
    | ⟨1, _⟩ => exact rhs_1 _ _)
  rw [el, er]
  rfl

/-- The bias row spread over the block's rows, read at an index: the row's entry in the index's column. -/
theorem bias_apply (x2 : Vec Ideal S1x64 .f32) (j : S5000x64.Idx) :
    broadcastTo S5000x64 x2 broadcasts_S1x64_S5000x64 j = x2 (brow j) :=
  broadcastTo_apply x2 broadcasts_S1x64_S5000x64 j (brow j) fun a => match a with
    | ⟨0, _⟩ => by show 0 = if (1 : Nat) = 1 then 0 else _; rw [if_pos rfl]
    | ⟨1, _⟩ => by show (j 1).val = if (64 : Nat) = 1 then 0 else (j 1).val; rw [if_neg (by decide)]

/-- The body's stored value at an index of the block: the larger of zero and the row-by-column sum plus the bias of the column. -/
theorem pay_apply (x0 : Vec Ideal S5000x32 .f32) (x1 : Vec Ideal S32x64 .f32) (x2 : Vec Ideal S1x64 .f32) (j : S5000x64.Idx) :
    k4_pay1 x0 x1 x2 j = max ((∑ k : Fin 32, x0 (lrow j k) * x1 (rcol j k)) + x2 (brow j)) (Ideal.ofBits .f32 0x00000000#32) := by
  unfold k4_pay1
  simp only [matmul, shapeCast_self]
  rw [ValueIdx.maximumf_apply, ValueIdx.addf_apply, mm_apply, bias_apply]
  rfl

/-! ## The host's expression at an index -/

/-- The host's product of whole arrays read at an index: the same sum over the whole arrays. -/
theorem dot_apply (a0 : (⟨Cert.ReferenceIdeal.S50000x32, .f32⟩ : BufTy).Contents (Elt Ideal)) (a1 : (⟨Cert.ReferenceIdeal.S32x64, .f32⟩ : BufTy).Contents (Elt Ideal)) (i : Cert.ReferenceIdeal.S50000x64.Idx) :
    Host.dotGeneral (F := Ideal) (φ₁ := .f32) (φ₂ := .f32) Cert.ReferenceIdeal.dot_S50000x32_S32x64_S50000x64_1_0_0_1_n_n none a0 a1 i
      = ∑ k : Fin 32, a0 (Cert.ReferenceIdeal.Read.lidx_main_v63 i k) * a1 (Cert.ReferenceIdeal.Read.ridx_main_v63 i k) := by
  simp only [Host.dotGeneral]
  rw [Ideal.dotGeneral_apply, ← Equiv.sum_comp (ValueIdx.contrEquiv1 Cert.ReferenceIdeal.dot_S50000x32_S32x64_S50000x64_1_0_0_1_n_n 32 rfl rfl).symm]
  refine Finset.sum_congr rfl fun k _ => ?_
  have hk := ValueIdx.contrEquiv1_symm_val Cert.ReferenceIdeal.dot_S50000x32_S32x64_S50000x64_1_0_0_1_n_n 32 rfl rfl k
  have el : Cert.ReferenceIdeal.dot_S50000x32_S32x64_S50000x64_1_0_0_1_n_n.lhsIdx i ((ValueIdx.contrEquiv1 Cert.ReferenceIdeal.dot_S50000x32_S32x64_S50000x64_1_0_0_1_n_n 32 rfl rfl).symm k) = Cert.ReferenceIdeal.Read.lidx_main_v63 i k := funext fun a => Fin.ext (by
    match a with
    | ⟨0, _⟩ => exact Cert.ReferenceIdeal.Read.lhs_main_v63_0 _ _
    | ⟨1, _⟩ => exact (Cert.ReferenceIdeal.Read.lhs_main_v63_1 _ _).trans hk)
  have er : Cert.ReferenceIdeal.dot_S50000x32_S32x64_S50000x64_1_0_0_1_n_n.rhsIdx i ((ValueIdx.contrEquiv1 Cert.ReferenceIdeal.dot_S50000x32_S32x64_S50000x64_1_0_0_1_n_n 32 rfl rfl).symm k) = Cert.ReferenceIdeal.Read.ridx_main_v63 i k := funext fun a => Fin.ext (by
    match a with
    | ⟨0, _⟩ => exact (Cert.ReferenceIdeal.Read.rhs_main_v63_0 _ _).trans hk
    | ⟨1, _⟩ => exact Cert.ReferenceIdeal.Read.rhs_main_v63_1 _ _)
  rw [el, er]

/-- The bias row spread over all 50000 rows, read at an index: the row's entry in the index's column. -/
theorem hbias_apply (b : (⟨Cert.ReferenceIdeal.S1x64, .f32⟩ : BufTy).Contents (Elt Ideal)) (i : Cert.ReferenceIdeal.S50000x64.Idx) :
    broadcastInDim Cert.ReferenceIdeal.S50000x64 ![0, 1] Cert.ReferenceIdeal.Facts₀.bcast_S1x64_S50000x64_0_1 b i = b (Cert.ReferenceIdeal.Read.idx_main_v65 i) :=
  broadcastInDim_apply _ Cert.ReferenceIdeal.Facts₀.bcast_S1x64_S50000x64_0_1 b i (Cert.ReferenceIdeal.Read.idx_main_v65 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The zero scalar spread over the whole array reads zero's word everywhere. -/
theorem hzero_apply (i : Cert.ReferenceIdeal.S50000x64.Idx) :
    broadcastInDim Cert.ReferenceIdeal.S50000x64 ![] Cert.ReferenceIdeal.Facts₀.bcast_S_S50000x64 (constant (F := Ideal) Cert.ReferenceIdeal.S_ .f32 0x00000000#32) i = Ideal.ofBits .f32 0x00000000#32 := by
  rw [broadcastInDim_apply _ Cert.ReferenceIdeal.Facts₀.bcast_S_S50000x64 (constant (F := Ideal) Cert.ReferenceIdeal.S_ .f32 0x00000000#32) i (Cert.ReferenceIdeal.Read.idx_main_call2_v0 i) (fun a => a.elim0)]
  rfl

/-- The host's whole expression, over any three arrays of the operands' types. -/
abbrev H (a0 : (⟨Cert.ReferenceIdeal.S50000x32, .f32⟩ : BufTy).Contents (Elt Ideal)) (a1 : (⟨Cert.ReferenceIdeal.S32x64, .f32⟩ : BufTy).Contents (Elt Ideal)) (b : (⟨Cert.ReferenceIdeal.S1x64, .f32⟩ : BufTy).Contents (Elt Ideal)) : Cert.ReferenceIdeal.S50000x64.Idx → Elt Ideal .f32 :=
  maximumf (F := Ideal) (addf (Host.dotGeneral (F := Ideal) (φ₁ := .f32) (φ₂ := .f32) Cert.ReferenceIdeal.dot_S50000x32_S32x64_S50000x64_1_0_0_1_n_n none a0 a1) (broadcastInDim Cert.ReferenceIdeal.S50000x64 ![0, 1] Cert.ReferenceIdeal.Facts₀.bcast_S1x64_S50000x64_0_1 b)) (broadcastInDim Cert.ReferenceIdeal.S50000x64 ![] Cert.ReferenceIdeal.Facts₀.bcast_S_S50000x64 (constant (F := Ideal) Cert.ReferenceIdeal.S_ .f32 0x00000000#32))

/-- The host's expression read at an index: the same maximum, of zero and the sum over whole rows and columns plus the bias. -/
theorem H_apply (a0 : (⟨Cert.ReferenceIdeal.S50000x32, .f32⟩ : BufTy).Contents (Elt Ideal)) (a1 : (⟨Cert.ReferenceIdeal.S32x64, .f32⟩ : BufTy).Contents (Elt Ideal)) (b : (⟨Cert.ReferenceIdeal.S1x64, .f32⟩ : BufTy).Contents (Elt Ideal)) (i : Cert.ReferenceIdeal.S50000x64.Idx) :
    H a0 a1 b i = max ((∑ k : Fin 32, a0 (Cert.ReferenceIdeal.Read.lidx_main_v63 i k) * a1 (Cert.ReferenceIdeal.Read.ridx_main_v63 i k)) + b (Cert.ReferenceIdeal.Read.idx_main_v65 i)) (Ideal.ofBits .f32 0x00000000#32) := by
  show maximumf (F := Ideal) _ _ i = _
  rw [ValueIdx.maximumf_apply, ValueIdx.addf_apply, dot_apply, hbias_apply, hzero_apply]

/-! ## The grid's index maps -/

/-- The printed index maps over the ten grid points: the hidden features' and the result's block row is the point,
    every other block index is zero. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-! ## What a point writes back -/

/-- The host's expression of the arrays as the region finds them. -/
abbrev G (c : Dev nD) : Cert.ReferenceIdeal.S50000x64.Idx → Elt Ideal .f32 :=
  H (V c main_v58) (V c main_arg6) (V c main_v59)

theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S5000x32) hz, View.ld_unit_zero (S := S32x64) hz, View.ld_unit_zero (S := S1x64) hz]
  obtain ⟨e0, e1, e2, e3, e4, e5, e6, e7⟩ := idx_facts t
  funext j
  show k4_pay1 (fun y : S5000x32.Idx => V c main_v58 (((cfg4.win 0).blk t).view.emb y)) (fun y : S32x64.Idx => V c main_arg6 (((cfg4.win 1).blk t).view.emb y)) (fun y : S1x64.Idx => V c main_v59 (((cfg4.win 2).blk t).view.emb y)) j
     = H (V c main_v58) (V c main_arg6) (V c main_v59) (((cfg4.win 3).blk t).view.emb j)
  rw [pay_apply, H_apply]
  have h0 : ∀ k : Fin 32, ((cfg4.win 0).blk t).view.emb (lrow j k) = Cert.ReferenceIdeal.Read.lidx_main_v63 (((cfg4.win 3).blk t).view.emb j) k := fun k => by
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 32 + 1 * k.val = k.val; omega
  have h1 : ∀ k : Fin 32, ((cfg4.win 1).blk t).view.emb (rcol j k) = Cert.ReferenceIdeal.Read.ridx_main_v63 (((cfg4.win 3).blk t).view.emb j) k := fun k => by
    funext a; apply Fin.ext
    match a with
    | ⟨0, _⟩ => show win4_1.index t (0 : Fin 2) * 32 + 1 * k.val = k.val; omega
    | ⟨1, _⟩ => show win4_1.index t (1 : Fin 2) * 64 + 1 * (j 1).val = win4_3.index t (1 : Fin 2) * 64 + 1 * (j 1).val; omega
  have h2 : ((cfg4.win 2).blk t).view.emb (brow j) = Cert.ReferenceIdeal.Read.idx_main_v65 (((cfg4.win 3).blk t).view.emb j) := by
    funext a; apply Fin.ext
    match a with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega
  rw [h2]
  simp only [h0, h1]

/-! ## The ten blocks cover the array -/

theorem mem_blk (t : Fin cfg4.N) (i : Cert.ReferenceIdeal.S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v60).slice (win4_3.rect t)).set ↔ _
  rw [View.set_slice_whole, Rect.mem_set_unit]
  exact Iff.rfl

theorem cover (i : Cert.ReferenceIdeal.S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  refine ⟨⟨(i 0).val / 5000, by show (i 0).val / 5000 < 10; omega⟩, flush4_3 _, ?_⟩
  rw [mem_blk]
  obtain ⟨e0, e1, e2, e3, e4, e5, e6, e7⟩ := idx_facts ⟨(i 0).val / 5000, by show (i 0).val / 5000 < 10; omega⟩
  intro a
  match a with
  | ⟨0, _⟩ => show win4_3.index _ (0 : Fin 2) * 5000 ≤ (i 0).val ∧ (i 0).val < win4_3.index _ (0 : Fin 2) * 5000 + 5000; rw [e6]; show (i 0).val / 5000 * 5000 ≤ (i 0).val ∧ (i 0).val < (i 0).val / 5000 * 5000 + 5000; omega
  | ⟨1, _⟩ => show win4_3.index _ (1 : Fin 2) * 64 ≤ (i 1).val ∧ (i 1).val < win4_3.index _ (1 : Fin 2) * 64 + 64; rw [e7]; omega

/-! ## The array after the region -/

/-- After region 4 its result array is the host's expression — the product, plus the bias row on every row, then the
    maximum with zero — of the three arrays the region was entered with. -/
theorem arr (c : Dev nD) :
    (dat4 V c).arrAt 3 cfg4.N = maximumf (F := Ideal) (addf (Host.dotGeneral (F := Ideal) (φ₁ := .f32) (φ₂ := .f32) Cert.ReferenceIdeal.dot_S50000x32_S32x64_S50000x64_1_0_0_1_n_n none (V c main_v58) (V c main_arg6)) (broadcastInDim Cert.ReferenceIdeal.S50000x64 ![0, 1] Cert.ReferenceIdeal.Facts₀.bcast_S1x64_S50000x64_0_1 (V c main_v59))) (broadcastInDim Cert.ReferenceIdeal.S50000x64 ![] Cert.ReferenceIdeal.Facts₀.bcast_S_S50000x64 (constant (F := Ideal) Cert.ReferenceIdeal.S_ .f32 0x00000000#32)) :=
  (dat4 V c).arrAt_eq_of_cover 3 (G V c) (fun t _ => flushed_eq V c t) (cover)

end Cert.KernelIdeal.Region4

end
-- ==== Proof.Region5.lean ====
import proofs.«116752_j31370441130067_1_alg».proof.Proof.Gen.KernelIdeal.Frame
import proofs.«116752_j31370441130067_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region5

open Cert.KernelIdeal Cert.KernelIdeal.Gen

-- the TensorCore's buffer contents when the region is entered
variable (V : (c : Dev nD) → (b : Ref sig .tc) → Buf (Elt Ideal) ((c : Thread nD τ).loc b))

/-! # Region 5: a row block of `logistic (h · W + b)`

Grid point `t` (of ten) loads rows `5000 t … 5000 t + 4999` of the left array, the whole weight array and the one
bias row, multiplies the first two into a zero accumulator, adds the bias row to every row of the product, applies the
logistic function and writes the result back as the same rows of the result array. A change of float format is the
identity on the extended reals and a product into a zero accumulator is the plain sum over the contracted axis, so entry
`(r, q)` of the ten blocks together is `logistic (∑ₖ h[r, k] · w[k, q] + b[0, q])`. The host spells the same function
as `1 / (1 + exp (−y))`, with `y` its `dot_general` of the two arrays plus the bias row repeated down the rows: its two
splats of the word `0x3F800000` are the extended real one, and one over one plus the exponential of the negation is
what the logistic function is on the extended reals, so the two agree index by index. -/

theorem hz : (![0, 0] : Fin 2 → Nat) = fun _ => 0 := funext fun a => by fin_cases a <;> rfl

/-! ## The block's value at an index -/

theorem lhs_0 (j : S5000x512.Idx) (q : dot_S5000x64_S64x512_S5000x512_1_0_0_1_n_n.contr.Idx) :
    (dot_S5000x64_S64x512_S5000x512_1_0_0_1_n_n.lhsIdx j q 0).val = (j 0).val := by
  unfold DotDims.lhsIdx
  rw [dif_neg (show ¬(0 : Fin S5000x64.rank) ∈ dot_S5000x64_S64x512_S5000x512_1_0_0_1_n_n.lhsBatch by decide), dif_pos (show (0 : Fin S5000x64.rank) ∈ dot_S5000x64_S64x512_S5000x512_1_0_0_1_n_n.lhsNonContracting by decide)]
  rfl
theorem lhs_1 (j : S5000x512.Idx) (q : dot_S5000x64_S64x512_S5000x512_1_0_0_1_n_n.contr.Idx) :
    (dot_S5000x64_S64x512_S5000x512_1_0_0_1_n_n.lhsIdx j q 1).val = (q ⟨0, by decide⟩).val :=
  dot_S5000x64_S64x512_S5000x512_1_0_0_1_n_n.lhsIdx_val_of_single rfl j q
theorem rhs_0 (j : S5000x512.Idx) (q : dot_S5000x64_S64x512_S5000x512_1_0_0_1_n_n.contr.Idx) :
    (dot_S5000x64_S64x512_S5000x512_1_0_0_1_n_n.rhsIdx j q 0).val = (q ⟨0, by decide⟩).val :=
  dot_S5000x64_S64x512_S5000x512_1_0_0_1_n_n.rhsIdx_val_of_single rfl j q
theorem rhs_1 (j : S5000x512.Idx) (q : dot_S5000x64_S64x512_S5000x512_1_0_0_1_n_n.contr.Idx) :
    (dot_S5000x64_S64x512_S5000x512_1_0_0_1_n_n.rhsIdx j q 1).val = (j 1).val := by
  unfold DotDims.rhsIdx
  rw [dif_neg (show ¬(1 : Fin S64x512.rank) ∈ dot_S5000x64_S64x512_S5000x512_1_0_0_1_n_n.rhsBatch by decide), dif_pos (show (1 : Fin S64x512.rank) ∈ dot_S5000x64_S64x512_S5000x512_1_0_0_1_n_n.rhsNonContracting by decide)]
  rfl

/-- Row `j 0`, column `k` of the left block. -/
abbrev lrow (j : S5000x512.Idx) (k : Fin 64) : S5000x64.Idx := fun a => match a with
  | ⟨0, _⟩ => ⟨(j 0).val, (j 0).isLt⟩
  | ⟨1, _⟩ => ⟨k.val, k.isLt⟩
/-- Row `k`, column `j 1` of the weight array. -/
abbrev rcol (j : S5000x512.Idx) (k : Fin 64) : S64x512.Idx := fun a => match a with
  | ⟨0, _⟩ => ⟨k.val, k.isLt⟩
  | ⟨1, _⟩ => ⟨(j 1).val, (j 1).isLt⟩
/-- Column `j 1` of the one bias row. -/
abbrev bcol (j : S5000x512.Idx) : S1x512.Idx := fun a => match a with
  | ⟨0, _⟩ => ⟨0, Nat.one_pos⟩
  | ⟨1, _⟩ => ⟨(j 1).val, (j 1).isLt⟩

/-- The body's stored value at an index of the block: the logistic function of the sum over the contracted axis of
    the two loaded blocks, plus the bias row's entry in the same column. -/
theorem pay_apply (x0 : Vec Ideal S5000x64 .f32) (x1 : Vec Ideal S64x512 .f32) (x2 : Vec Ideal S1x512 .f32) (j : S5000x512.Idx) :
    k5_pay1 x0 x1 x2 j = Ideal.logistic ((∑ k : Fin 64, x0 (lrow j k) * x1 (rcol j k)) + x2 (bcol j)) := by
  unfold k5_pay1
  simp only [logistic, addf, shapeCast_self, matmul]
  have hb : broadcastTo S5000x512 x2 broadcasts_S1x512_S5000x512 j = x2 (bcol j) :=
    broadcastTo_apply x2 broadcasts_S1x512_S5000x512 j (bcol j) (fun a => match a with
      | ⟨0, _⟩ => by show 0 = if (1 : Nat) = 1 then 0 else (j 0).val; rw [if_pos rfl]
      | ⟨1, _⟩ => by show (j 1).val = if (512 : Nat) = 1 then 0 else (j 1).val; rw [if_neg (by decide)])
  rw [hb, Ideal.matmul_constant_zero_apply, ← Equiv.sum_comp (ValueIdx.contrEquiv1 dot_S5000x64_S64x512_S5000x512_1_0_0_1_n_n 64 rfl rfl).symm]
  show Ideal.logistic (_ + _) = Ideal.logistic (_ + _)
  refine congrArg (fun s => Ideal.logistic (s + x2 (bcol j))) (Finset.sum_congr rfl fun k _ => ?_)
  have hk := ValueIdx.contrEquiv1_symm_val dot_S5000x64_S64x512_S5000x512_1_0_0_1_n_n 64 rfl rfl k
  have el : dot_S5000x64_S64x512_S5000x512_1_0_0_1_n_n.lhsIdx j ((ValueIdx.contrEquiv1 dot_S5000x64_S64x512_S5000x512_1_0_0_1_n_n 64 rfl rfl).symm k) = lrow j k := funext fun a => Fin.ext (by
    match a with
    | ⟨0, _⟩ => exact lhs_0 _ _
    | ⟨1, _⟩ => exact (lhs_1 _ _).trans hk)
  have er : dot_S5000x64_S64x512_S5000x512_1_0_0_1_n_n.rhsIdx j ((ValueIdx.contrEquiv1 dot_S5000x64_S64x512_S5000x512_1_0_0_1_n_n 64 rfl rfl).symm k) = rcol j k := funext fun a => Fin.ext (by
    match a with
    | ⟨0, _⟩ => exact (rhs_0 _ _).trans hk
    | ⟨1, _⟩ => exact rhs_1 _ _)
  rw [el, er]
  rfl

/-! ## The host's function at an index -/

/-- The host's product of the two arrays read at an index: the sum over the contracted axis of the whole arrays. -/
theorem dot_apply (a0 : (⟨Cert.ReferenceIdeal.S50000x64, .f32⟩ : BufTy).Contents (Elt Ideal)) (a1 : (⟨Cert.ReferenceIdeal.S64x512, .f32⟩ : BufTy).Contents (Elt Ideal)) (i : Cert.ReferenceIdeal.S50000x512.Idx) :
    Host.dotGeneral (F := Ideal) (φ₁ := .f32) (φ₂ := .f32) Cert.ReferenceIdeal.dot_S50000x64_S64x512_S50000x512_1_0_0_1_n_n none a0 a1 i = ∑ k : Fin 64, a0 (Cert.ReferenceIdeal.Read.lidx_main_v68 i k) * a1 (Cert.ReferenceIdeal.Read.ridx_main_v68 i k) := by
  simp only [Host.dotGeneral]
  rw [Ideal.dotGeneral_apply, ← Equiv.sum_comp (ValueIdx.contrEquiv1 Cert.ReferenceIdeal.dot_S50000x64_S64x512_S50000x512_1_0_0_1_n_n 64 rfl rfl).symm]
  refine Finset.sum_congr rfl fun k _ => ?_
  have hk := ValueIdx.contrEquiv1_symm_val Cert.ReferenceIdeal.dot_S50000x64_S64x512_S50000x512_1_0_0_1_n_n 64 rfl rfl k
  have el : Cert.ReferenceIdeal.dot_S50000x64_S64x512_S50000x512_1_0_0_1_n_n.lhsIdx i ((ValueIdx.contrEquiv1 Cert.ReferenceIdeal.dot_S50000x64_S64x512_S50000x512_1_0_0_1_n_n 64 rfl rfl).symm k) = Cert.ReferenceIdeal.Read.lidx_main_v68 i k := funext fun a => Fin.ext (by
    match a with
    | ⟨0, _⟩ => exact Cert.ReferenceIdeal.Read.lhs_main_v68_0 _ _
    | ⟨1, _⟩ => exact (Cert.ReferenceIdeal.Read.lhs_main_v68_1 _ _).trans hk)
  have er : Cert.ReferenceIdeal.dot_S50000x64_S64x512_S50000x512_1_0_0_1_n_n.rhsIdx i ((ValueIdx.contrEquiv1 Cert.ReferenceIdeal.dot_S50000x64_S64x512_S50000x512_1_0_0_1_n_n 64 rfl rfl).symm k) = Cert.ReferenceIdeal.Read.ridx_main_v68 i k := funext fun a => Fin.ext (by
    match a with
    | ⟨0, _⟩ => exact (Cert.ReferenceIdeal.Read.rhs_main_v68_0 _ _).trans hk
    | ⟨1, _⟩ => exact Cert.ReferenceIdeal.Read.rhs_main_v68_1 _ _)
  rw [el, er]

/-- The splat of the f32 word of one over the whole result shape. -/
abbrev ones : (⟨Cert.ReferenceIdeal.S50000x512, .f32⟩ : BufTy).Contents (Elt Ideal) :=
  broadcastInDim Cert.ReferenceIdeal.S50000x512 ![] Cert.ReferenceIdeal.Facts₀.bcast_S_S50000x512 (constant (F := Ideal) Cert.ReferenceIdeal.S_ .f32 0x3F800000#32)

/-- It is the extended real one at every index. -/
theorem ones_apply (i : Cert.ReferenceIdeal.S50000x512.Idx) : ones i = (1 : EReal) := by
  show broadcastInDim Cert.ReferenceIdeal.S50000x512 ![] Cert.ReferenceIdeal.Facts₀.bcast_S_S50000x512 (constant (F := Ideal) Cert.ReferenceIdeal.S_ .f32 0x3F800000#32) i = 1
  rw [broadcastInDim_apply _ Cert.ReferenceIdeal.Facts₀.bcast_S_S50000x512 _ i (fun a => a.elim0) (fun a => a.elim0)]
  exact Ideal.ofBits_one_f32

/-- The host's function of a left array, a weight array and a bias row: one over one plus the exponential of minus
    (the product plus the bias row repeated down the rows). -/
abbrev R (a0 : (⟨Cert.ReferenceIdeal.S50000x64, .f32⟩ : BufTy).Contents (Elt Ideal)) (a1 : (⟨Cert.ReferenceIdeal.S64x512, .f32⟩ : BufTy).Contents (Elt Ideal)) (b : (⟨Cert.ReferenceIdeal.S1x512, .f32⟩ : BufTy).Contents (Elt Ideal)) :
    (⟨Cert.ReferenceIdeal.S50000x512, .f32⟩ : BufTy).Contents (Elt Ideal) :=
  Host.divf (F := Ideal) ones (addf ones (Host.exp (Host.negf (addf (Host.dotGeneral (F := Ideal) (φ₁ := .f32) (φ₂ := .f32) Cert.ReferenceIdeal.dot_S50000x64_S64x512_S50000x512_1_0_0_1_n_n none a0 a1) (broadcastInDim Cert.ReferenceIdeal.S50000x512 ![0, 1] Cert.ReferenceIdeal.Facts₀.bcast_S1x512_S50000x512_0_1 b)))))

/-- Read at an index it is the logistic function of the whole arrays' sum plus the bias entry in that column: the
    two splats are one, and one over one plus the exponential of the negation is the logistic function's definition. -/
theorem R_apply (a0 : (⟨Cert.ReferenceIdeal.S50000x64, .f32⟩ : BufTy).Contents (Elt Ideal)) (a1 : (⟨Cert.ReferenceIdeal.S64x512, .f32⟩ : BufTy).Contents (Elt Ideal)) (b : (⟨Cert.ReferenceIdeal.S1x512, .f32⟩ : BufTy).Contents (Elt Ideal)) (i : Cert.ReferenceIdeal.S50000x512.Idx) :
    R a0 a1 b i = Ideal.logistic ((∑ k : Fin 64, a0 (Cert.ReferenceIdeal.Read.lidx_main_v68 i k) * a1 (Cert.ReferenceIdeal.Read.ridx_main_v68 i k)) + b (Cert.ReferenceIdeal.Read.idx_main_v70 i)) := by
  have hb : broadcastInDim Cert.ReferenceIdeal.S50000x512 ![0, 1] Cert.ReferenceIdeal.Facts₀.bcast_S1x512_S50000x512_0_1 b i = b (Cert.ReferenceIdeal.Read.idx_main_v70 i) :=
    broadcastInDim_apply _ Cert.ReferenceIdeal.Facts₀.bcast_S1x512_S50000x512_0_1 b i (Cert.ReferenceIdeal.Read.idx_main_v70 i) (fun a => match a with
      | ⟨0, _⟩ => by show 0 = if (1 : Nat) = 1 then 0 else (i 0).val; rw [if_pos rfl]
      | ⟨1, _⟩ => by show (i 1).val = if (512 : Nat) = 1 then 0 else (i 1).val; rw [if_neg (by decide)])
  show FloatOps.hostDivf (ones i) (FloatOps.addf (ones i) (FloatOps.hostUnary .exp (FloatOps.hostNegf (FloatOps.addf
      (Host.dotGeneral (F := Ideal) (φ₁ := .f32) (φ₂ := .f32) Cert.ReferenceIdeal.dot_S50000x64_S64x512_S50000x512_1_0_0_1_n_n none a0 a1 i)
      (broadcastInDim Cert.ReferenceIdeal.S50000x512 ![0, 1] Cert.ReferenceIdeal.Facts₀.bcast_S1x512_S50000x512_0_1 b i))))) = _
  rw [ones_apply, hb, dot_apply]
  rfl

/-! ## The grid's index maps -/

/-- The printed index maps over the ten grid points: the left array's and the result's block row is the point, every
    other block index is zero. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-! ## What a point writes back -/

/-- The host's function of the three arrays as the region finds them. -/
abbrev G (c : Dev nD) : Cert.ReferenceIdeal.S50000x512.Idx → Elt Ideal .f32 :=
  R (V c main_v60) (V c main_arg8) (V c main_v61)

theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S5000x64) hz, View.ld_unit_zero (S := S64x512) hz, View.ld_unit_zero (S := S1x512) hz]
  obtain ⟨e0, e1, e2, e3, e4, e5, e6, e7⟩ := idx_facts t
  funext j
  show k5_pay1 (fun y : S5000x64.Idx => V c main_v60 (((cfg5.win 0).blk t).view.emb y)) (fun y : S64x512.Idx => V c main_arg8 (((cfg5.win 1).blk t).view.emb y)) (fun y : S1x512.Idx => V c main_v61 (((cfg5.win 2).blk t).view.emb y)) j
     = R (V c main_v60) (V c main_arg8) (V c main_v61) (((cfg5.win 3).blk t).view.emb j)
  rw [pay_apply, R_apply]
  have h2 : ((cfg5.win 2).blk t).view.emb (bcol j) = Cert.ReferenceIdeal.Read.idx_main_v70 (((cfg5.win 3).blk t).view.emb j) := by
    funext a; apply Fin.ext
    match a with
    | ⟨0, _⟩ => show win5_2.index t (0 : Fin 2) * 1 + 1 * 0 = 0; omega
    | ⟨1, _⟩ => show win5_2.index t (1 : Fin 2) * 512 + 1 * (j 1).val = win5_3.index t (1 : Fin 2) * 512 + 1 * (j 1).val; omega
  rw [h2]
  refine congrArg (fun s => Ideal.logistic (s + V c main_v61 (Cert.ReferenceIdeal.Read.idx_main_v70 (((cfg5.win 3).blk t).view.emb j)))) (Finset.sum_congr rfl fun k _ => ?_)
  have h0 : ((cfg5.win 0).blk t).view.emb (lrow j k) = Cert.ReferenceIdeal.Read.lidx_main_v68 (((cfg5.win 3).blk t).view.emb j) k := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * k.val = k.val; omega
  have h1 : ((cfg5.win 1).blk t).view.emb (rcol j k) = Cert.ReferenceIdeal.Read.ridx_main_v68 (((cfg5.win 3).blk t).view.emb j) k := by
    funext a; apply Fin.ext
    match a with
    | ⟨0, _⟩ => show win5_1.index t (0 : Fin 2) * 64 + 1 * k.val = k.val; omega
    | ⟨1, _⟩ => show win5_1.index t (1 : Fin 2) * 512 + 1 * (j 1).val = win5_3.index t (1 : Fin 2) * 512 + 1 * (j 1).val; omega
  rw [h0, h1]

/-! ## The ten blocks cover the array -/

theorem mem_blk (t : Fin cfg5.N) (i : Cert.ReferenceIdeal.S50000x512.Idx) :
    i ∈ ((cfg5.win 3).blk t).view.set ↔ ∀ a : Fin 2, win5_3.index t a * S5000x512.size a ≤ (i a).val ∧ (i a).val < win5_3.index t a * S5000x512.size a + S5000x512.size a := by
  show i ∈ ((View.whole main_v62).slice (win5_3.rect t)).set ↔ _
  rw [View.set_slice_whole, Rect.mem_set_unit]
  exact Iff.rfl

theorem cover (i : Cert.ReferenceIdeal.S50000x512.Idx) :
    ∃ t : Fin cfg5.N, (cfg5.win 3).flush t = true ∧ i ∈ ((cfg5.win 3).blk t).view.set := by
  have hi0 : (i 0).val < 50000 := (i 0).isLt
  have hi1 : (i 1).val < 512 := (i 1).isLt
  refine ⟨⟨(i 0).val / 5000, by show (i 0).val / 5000 < 10; omega⟩, flush5_3 _, ?_⟩
  rw [mem_blk]
  obtain ⟨e0, e1, e2, e3, e4, e5, e6, e7⟩ := idx_facts ⟨(i 0).val / 5000, by show (i 0).val / 5000 < 10; omega⟩
  intro a
  match a with
  | ⟨0, _⟩ => show win5_3.index _ (0 : Fin 2) * 5000 ≤ (i 0).val ∧ (i 0).val < win5_3.index _ (0 : Fin 2) * 5000 + 5000; rw [e6]; show (i 0).val / 5000 * 5000 ≤ (i 0).val ∧ (i 0).val < (i 0).val / 5000 * 5000 + 5000; omega
  | ⟨1, _⟩ => show win5_3.index _ (1 : Fin 2) * 512 ≤ (i 1).val ∧ (i 1).val < win5_3.index _ (1 : Fin 2) * 512 + 512; rw [e7]; omega

/-! ## The array after the region -/

/-- After region 5 its result array is the host's one over one plus the exponential of minus (the product of the left
    and weight arrays plus the bias row), of the arrays the region was entered with. -/
theorem arr (c : Dev nD) :
    (dat5 V c).arrAt 3 cfg5.N = Host.divf (F := Ideal) (broadcastInDim Cert.ReferenceIdeal.S50000x512 ![] Cert.ReferenceIdeal.Facts₀.bcast_S_S50000x512 (constant (F := Ideal) Cert.ReferenceIdeal.S_ .f32 0x3F800000#32)) (addf (broadcastInDim Cert.ReferenceIdeal.S50000x512 ![] Cert.ReferenceIdeal.Facts₀.bcast_S_S50000x512 (constant (F := Ideal) Cert.ReferenceIdeal.S_ .f32 0x3F800000#32)) (Host.exp (Host.negf (addf (Host.dotGeneral (F := Ideal) (φ₁ := .f32) (φ₂ := .f32) Cert.ReferenceIdeal.dot_S50000x64_S64x512_S50000x512_1_0_0_1_n_n none (V c main_v60) (V c main_arg8)) (broadcastInDim Cert.ReferenceIdeal.S50000x512 ![0, 1] Cert.ReferenceIdeal.Facts₀.bcast_S1x512_S50000x512_0_1 (V c main_v61)))))) :=
  (dat5 V c).arrAt_eq_of_cover 3 (G V c) (fun t _ => flushed_eq V c t) (cover)

end Cert.KernelIdeal.Region5

end
-- ==== Proof.Fold.lean ====
/-
  The kernel program's result, read back through @main's twelve segment boundaries, is the reference's value.

  `W0 … W11` are the buffer contents at the boundaries: a host stretch rewrites the buffers its operations write and
  keeps the rest, a region rewrites its result array and keeps every other buffer. The host operations between the
  regions (the self loops, the degrees and message coefficients, each layer's gather, scaling and scatter-add) are the
  reference's own operations, so a stretch's value at a buffer is the reference's stage of the same name once the
  buffers it reads are; each region's result array is the reference's operation on the region's operands (the six
  region modules). Boundary by boundary this identifies every buffer a later segment reads, and at the last boundary
  the result buffer, with the reference's value of the ten arguments.
-/
import proofs.«116752_j31370441130067_1_alg».proof.Proof.Region0
import proofs.«116752_j31370441130067_1_alg».proof.Proof.Region1
import proofs.«116752_j31370441130067_1_alg».proof.Proof.Region2
import proofs.«116752_j31370441130067_1_alg».proof.Proof.Region3
import proofs.«116752_j31370441130067_1_alg».proof.Proof.Region4
import proofs.«116752_j31370441130067_1_alg».proof.Proof.Region5
import proofs.«116752_j31370441130067_1_alg».proof.Proof.Gen.KernelIdeal.Frame
import proofs.«116752_j31370441130067_1_alg».proof.Proof.Gen.ReferenceIdeal.Read
import Idealize.ShloMosaic.Lib.StableHlo.Run
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg) (c : Dev nD)

/-- A buffer that no operation of a host stretch writes keeps its contents across the stretch. -/
local macro "host_keeps" : tactic => `(tactic| (
  refine StableHlo.after_of_forall_not_mem _ _ (List.forall_iff_forall_mem.mp ?_)
  simp only [hostOps0, hostOps1, hostOps3, hostOps4, hostOps5, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- What is left of a stretch's fold inside an operand list after the one-pass reading: each operation's result at
    its own buffer is its function's value, at another buffer what was there. -/
local macro "results_rw" : tactic => `(tactic| repeat (first
  | rw [StableHlo.nullary_result] | rw [StableHlo.unary_result] | rw [StableHlo.binary_result] | rw [StableHlo.ternary_result]
  | rw [StableHlo.reshape_result]
  | (rw [StableHlo.nullary_result_ne]; rotate_left; decide)
  | (rw [StableHlo.unary_result_ne]; rotate_left; decide)
  | (rw [StableHlo.binary_result_ne]; rotate_left; decide)
  | (rw [StableHlo.ternary_result_ne]; rotate_left; decide)
  | (rw [StableHlo.reshape_result_ne]; rotate_left; decide)))

/-! ## A bias vector as a one-row matrix

The kernel reshapes a bias `[n]` to `[1, n]`; the reference broadcasts it along a new leading axis. Both read the
vector at the column. -/

theorem row64 (b : S64.Idx → Elt Ideal .f32) (h : S64.ShapeCasts S1x64) :
    shapeCast S1x64 b h = Cert.ReferenceIdeal.Read.val_main_v41 (F := Ideal) b := by
  funext j
  rw [Cert.ReferenceIdeal.Read.val_main_v41_apply]
  exact (shapeCast_addUnit_apply ![64] b h j).trans (congrArg b (funext fun a => by match a with | ⟨0, _⟩ => rfl))

theorem row32 (b : S32.Idx → Elt Ideal .f32) (h : S32.ShapeCasts S1x32) :
    shapeCast S1x32 b h = Cert.ReferenceIdeal.Read.val_main_v59 (F := Ideal) b := by
  funext j
  rw [Cert.ReferenceIdeal.Read.val_main_v59_apply]
  exact (shapeCast_addUnit_apply ![32] b h j).trans (congrArg b (funext fun a => by match a with | ⟨0, _⟩ => rfl))

theorem row64' (b : S64.Idx → Elt Ideal .f32) (h : S64.ShapeCasts S1x64) :
    shapeCast S1x64 b h = Cert.ReferenceIdeal.Read.val_main_v64 (F := Ideal) b := by
  funext j
  rw [Cert.ReferenceIdeal.Read.val_main_v64_apply]
  exact (shapeCast_addUnit_apply ![64] b h j).trans (congrArg b (funext fun a => by match a with | ⟨0, _⟩ => rfl))

theorem row512 (b : S512.Idx → Elt Ideal .f32) (h : S512.ShapeCasts S1x512) :
    shapeCast S1x512 b h = Cert.ReferenceIdeal.Read.val_main_v69 (F := Ideal) b := by
  funext j
  rw [Cert.ReferenceIdeal.Read.val_main_v69_apply]
  exact (shapeCast_addUnit_apply ![512] b h j).trans (congrArg b (funext fun a => by match a with | ⟨0, _⟩ => rfl))

/-! ## After the first host stretch (region 0's entry)

The stretch computes, from the edge list alone, the message sources and targets with the self loops appended and the
symmetric normalisation coefficient of every message; it writes no argument. -/

theorem a0_at1 : W1 m ρ c (Proc.devRef .tc main_arg0) = (m ((c : Thread nD τ).loc main_arg0)) :=
  (show W1 m ρ c (Proc.devRef .tc main_arg0) = W0 m ρ c (Proc.devRef .tc main_arg0) by host_keeps).trans rfl
theorem a2_at1 : W1 m ρ c (Proc.devRef .tc main_arg2) = (m ((c : Thread nD τ).loc main_arg2)) :=
  (show W1 m ρ c (Proc.devRef .tc main_arg2) = W0 m ρ c (Proc.devRef .tc main_arg2) by host_keeps).trans rfl
theorem a3_at1 : W1 m ρ c (Proc.devRef .tc main_arg3) = (m ((c : Thread nD τ).loc main_arg3)) :=
  (show W1 m ρ c (Proc.devRef .tc main_arg3) = W0 m ρ c (Proc.devRef .tc main_arg3) by host_keeps).trans rfl
theorem a4_at1 : W1 m ρ c (Proc.devRef .tc main_arg4) = (m ((c : Thread nD τ).loc main_arg4)) :=
  (show W1 m ρ c (Proc.devRef .tc main_arg4) = W0 m ρ c (Proc.devRef .tc main_arg4) by host_keeps).trans rfl
theorem a5_at1 : W1 m ρ c (Proc.devRef .tc main_arg5) = (m ((c : Thread nD τ).loc main_arg5)) :=
  (show W1 m ρ c (Proc.devRef .tc main_arg5) = W0 m ρ c (Proc.devRef .tc main_arg5) by host_keeps).trans rfl

theorem src_at1 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  simp only [hostOps0]
  after_results_simp
  results_rw
  rfl

theorem dst_at1 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  simp only [hostOps0]
  after_results_simp
  results_rw
  rfl

theorem norm_at1 : W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  simp only [hostOps0]
  after_results_simp
  results_rw
  rfl

/-! ## After region 0: the first layer's projected features `x · W₁` -/

theorem hw1_at2 : W2 m ρ c (Proc.devRef .tc main_v27) = Cert.ReferenceIdeal.Read.val_main_v27 (F := Ideal) (m ((c : Thread nD τ).loc main_arg0)) (m ((c : Thread nD τ).loc main_arg2)) :=
  (W2_arr m ρ c 2).trans ((Cert.KernelIdeal.Region0.arr (V1 m ρ) c).trans (by
    show Host.dotGeneral (F := Ideal) (φ₁ := .f32) (φ₂ := .f32) Cert.ReferenceIdeal.dot_S50000x512_S512x64_S50000x64_1_0_0_1_n_n none (W1 m ρ c (Proc.devRef .tc main_arg0)) (W1 m ρ c (Proc.devRef .tc main_arg2)) = _
    rw [a0_at1, a2_at1]
    rfl))

theorem src_at2 : W2 m ρ c (Proc.devRef .tc main_v3) = Cert.ReferenceIdeal.Read.val_main_v3 (F := Ideal) (m ((c : Thread nD τ).loc main_arg1)) :=
  (W2_of_ne m ρ c main_v3 (by decide)).trans (src_at1 m ρ c)
theorem dst_at2 : W2 m ρ c (Proc.devRef .tc main_v6) = Cert.ReferenceIdeal.Read.val_main_v6 (F := Ideal) (m ((c : Thread nD τ).loc main_arg1)) :=
  (W2_of_ne m ρ c main_v6 (by decide)).trans (dst_at1 m ρ c)
theorem norm_at2 : W2 m ρ c (Proc.devRef .tc main_v26) = Cert.ReferenceIdeal.Read.val_main_v26 (F := Ideal) (m ((c : Thread nD τ).loc main_arg1)) :=
  (W2_of_ne m ρ c main_v26 (by decide)).trans (norm_at1 m ρ c)
theorem a3_at2 : W2 m ρ c (Proc.devRef .tc main_arg3) = (m ((c : Thread nD τ).loc main_arg3)) :=
  (W2_of_ne m ρ c main_arg3 (by decide)).trans (a3_at1 m ρ c)
theorem a4_at2 : W2 m ρ c (Proc.devRef .tc main_arg4) = (m ((c : Thread nD τ).loc main_arg4)) :=
  (W2_of_ne m ρ c main_arg4 (by decide)).trans (a4_at1 m ρ c)
theorem a5_at2 : W2 m ρ c (Proc.devRef .tc main_arg5) = (m ((c : Thread nD τ).loc main_arg5)) :=
  (W2_of_ne m ρ c main_arg5 (by decide)).trans (a5_at1 m ρ c)

/-! ## After the second host stretch (region 1's entry)

Every message gathers its source's projected features, scales them by its coefficient, and the messages are summed
into their targets: the first layer's aggregation. The first bias becomes a one-row matrix. -/

theorem agg1_at3 : W3 m ρ c (Proc.devRef .tc main_v40) = Cert.ReferenceIdeal.Read.val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  simp only [hostOps1]
  after_results_simp
  results_rw
  rw [hw1_at2, src_at2, dst_at2, norm_at2]
  rfl

theorem brow1_at3 : W3 m ρ c (Proc.devRef .tc main_v41) = Cert.ReferenceIdeal.Read.val_main_v41 (F := Ideal) (m ((c : Thread nD τ).loc main_arg3)) := by
  show StableHlo.after hostOps1 (W2 m ρ c) (Proc.devRef .tc main_v41) = _
  simp only [hostOps1]
  after_results_simp
  results_rw
  rw [a3_at2]
  exact row64 _ _

theorem src_at3 : W3 m ρ c (Proc.devRef .tc main_v3) = Cert.ReferenceIdeal.Read.val_main_v3 (F := Ideal) (m ((c : Thread nD τ).loc main_arg1)) :=
  (show W3 m ρ c (Proc.devRef .tc main_v3) = W2 m ρ c (Proc.devRef .tc main_v3) by host_keeps).trans (src_at2 m ρ c)
theorem dst_at3 : W3 m ρ c (Proc.devRef .tc main_v6) = Cert.ReferenceIdeal.Read.val_main_v6 (F := Ideal) (m ((c : Thread nD τ).loc main_arg1)) :=
  (show W3 m ρ c (Proc.devRef .tc main_v6) = W2 m ρ c (Proc.devRef .tc main_v6) by host_keeps).trans (dst_at2 m ρ c)
theorem norm_at3 : W3 m ρ c (Proc.devRef .tc main_v26) = Cert.ReferenceIdeal.Read.val_main_v26 (F := Ideal) (m ((c : Thread nD τ).loc main_arg1)) :=
  (show W3 m ρ c (Proc.devRef .tc main_v26) = W2 m ρ c (Proc.devRef .tc main_v26) by host_keeps).trans (norm_at2 m ρ c)
theorem a4_at3 : W3 m ρ c (Proc.devRef .tc main_arg4) = (m ((c : Thread nD τ).loc main_arg4)) :=
  (show W3 m ρ c (Proc.devRef .tc main_arg4) = W2 m ρ c (Proc.devRef .tc main_arg4) by host_keeps).trans (a4_at2 m ρ c)
theorem a5_at3 : W3 m ρ c (Proc.devRef .tc main_arg5) = (m ((c : Thread nD τ).loc main_arg5)) :=
  (show W3 m ρ c (Proc.devRef .tc main_arg5) = W2 m ρ c (Proc.devRef .tc main_arg5) by host_keeps).trans (a5_at2 m ρ c)

/-! ## After region 1: the first hidden layer `relu (aggregation + b₁)` -/

theorem h_at4 : W4 m ρ c (Proc.devRef .tc main_v42) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) :=
  (W4_arr m ρ c 2).trans ((Cert.KernelIdeal.Region1.arr (V3 m ρ) c).trans (by
    show maximumf (F := Ideal) (addf (W3 m ρ c (Proc.devRef .tc main_v40)) (broadcastInDim Cert.ReferenceIdeal.S50000x64 ![0, 1] Cert.ReferenceIdeal.Facts₀.bcast_S1x64_S50000x64_0_1 (W3 m ρ c (Proc.devRef .tc main_v41)))) _ = _
    rw [agg1_at3, brow1_at3]
    rfl))

theorem src_at4 : W4 m ρ c (Proc.devRef .tc main_v3) = Cert.ReferenceIdeal.Read.val_main_v3 (F := Ideal) (m ((c : Thread nD τ).loc main_arg1)) :=
  (W4_of_ne m ρ c main_v3 (by decide)).trans (src_at3 m ρ c)
theorem dst_at4 : W4 m ρ c (Proc.devRef .tc main_v6) = Cert.ReferenceIdeal.Read.val_main_v6 (F := Ideal) (m ((c : Thread nD τ).loc main_arg1)) :=
  (W4_of_ne m ρ c main_v6 (by decide)).trans (dst_at3 m ρ c)
theorem norm_at4 : W4 m ρ c (Proc.devRef .tc main_v26) = Cert.ReferenceIdeal.Read.val_main_v26 (F := Ideal) (m ((c : Thread nD τ).loc main_arg1)) :=
  (W4_of_ne m ρ c main_v26 (by decide)).trans (norm_at3 m ρ c)
theorem a4_at4 : W4 m ρ c (Proc.devRef .tc main_arg4) = (m ((c : Thread nD τ).loc main_arg4)) :=
  (W4_of_ne m ρ c main_arg4 (by decide)).trans (a4_at3 m ρ c)
theorem a5_at4 : W4 m ρ c (Proc.devRef .tc main_arg5) = (m ((c : Thread nD τ).loc main_arg5)) :=
  (W4_of_ne m ρ c main_arg5 (by decide)).trans (a5_at3 m ρ c)

/-! ## After region 2: the second layer's projected features `h · W₂` -/

theorem hw2_at5 : W5 m ρ c (Proc.devRef .tc main_v43) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans ((Cert.KernelIdeal.Region2.arr (V4 m ρ) c).trans (by
    show Host.dotGeneral (F := Ideal) (φ₁ := .f32) (φ₂ := .f32) Cert.ReferenceIdeal.dot_S50000x64_S64x32_S50000x32_1_0_0_1_n_n none (W4 m ρ c (Proc.devRef .tc main_v42)) (W4 m ρ c (Proc.devRef .tc main_arg4)) = _
    rw [h_at4, a4_at4]
    rfl))

theorem src_at5 : W5 m ρ c (Proc.devRef .tc main_v3) = Cert.ReferenceIdeal.Read.val_main_v3 (F := Ideal) (m ((c : Thread nD τ).loc main_arg1)) :=
  (W5_of_ne m ρ c main_v3 (by decide)).trans (src_at4 m ρ c)
theorem dst_at5 : W5 m ρ c (Proc.devRef .tc main_v6) = Cert.ReferenceIdeal.Read.val_main_v6 (F := Ideal) (m ((c : Thread nD τ).loc main_arg1)) :=
  (W5_of_ne m ρ c main_v6 (by decide)).trans (dst_at4 m ρ c)
theorem norm_at5 : W5 m ρ c (Proc.devRef .tc main_v26) = Cert.ReferenceIdeal.Read.val_main_v26 (F := Ideal) (m ((c : Thread nD τ).loc main_arg1)) :=
  (W5_of_ne m ρ c main_v26 (by decide)).trans (norm_at4 m ρ c)
theorem a5_at5 : W5 m ρ c (Proc.devRef .tc main_arg5) = (m ((c : Thread nD τ).loc main_arg5)) :=
  (W5_of_ne m ρ c main_arg5 (by decide)).trans (a5_at4 m ρ c)

/-! ## After the third host stretch (region 3's entry): the second layer's aggregation -/

theorem agg2_at6 : W6 m ρ c (Proc.devRef .tc main_v56) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  simp only [hostOps3]
  after_results_simp
  results_rw
  rw [hw2_at5, src_at5, dst_at5, norm_at5]
  rfl

theorem brow2_at6 : W6 m ρ c (Proc.devRef .tc main_v57) = Cert.ReferenceIdeal.Read.val_main_v59 (F := Ideal) (m ((c : Thread nD τ).loc main_arg5)) := by
  show StableHlo.after hostOps3 (W5 m ρ c) (Proc.devRef .tc main_v57) = _
  simp only [hostOps3]
  after_results_simp
  results_rw
  rw [a5_at5]
  exact row32 _ _

/-! ## After region 3: the latent layer `relu (aggregation + b₂)` -/

theorem z_at7 : W7 m ρ c (Proc.devRef .tc main_v58) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans ((Cert.KernelIdeal.Region3.arr (V6 m ρ) c).trans (by
    show maximumf (F := Ideal) (addf (W6 m ρ c (Proc.devRef .tc main_v56)) (broadcastInDim Cert.ReferenceIdeal.S50000x32 ![0, 1] Cert.ReferenceIdeal.Facts₀.bcast_S1x32_S50000x32_0_1 (W6 m ρ c (Proc.devRef .tc main_v57)))) _ = _
    rw [agg2_at6, brow2_at6]
    rfl))

/-! ## The decoder's weights and biases, which nothing writes: read down from the last boundary -/

theorem a9_at9 : W9 m ρ c (Proc.devRef .tc main_arg9) = (m ((c : Thread nD τ).loc main_arg9)) :=
  ((show W10 m ρ c (Proc.devRef .tc main_arg9) = W9 m ρ c (Proc.devRef .tc main_arg9) by host_keeps).symm.trans
    (W11_of_ne m ρ c main_arg9 (by decide)).symm).trans (W11_main_arg9 m ρ c)

theorem a8_at10 : W10 m ρ c (Proc.devRef .tc main_arg8) = (m ((c : Thread nD τ).loc main_arg8)) :=
  ((W11_arr m ρ c 1).trans (((dat5 (V10 m ρ) c).arrAt_in 1 rfl _).trans (A_eq5 (V10 m ρ) c 1))).symm.trans (W11_main_arg8 m ρ c)

theorem a7_at7 : W7 m ρ c (Proc.devRef .tc main_arg7) = (m ((c : Thread nD τ).loc main_arg7)) :=
  ((((show W8 m ρ c (Proc.devRef .tc main_arg7) = W7 m ρ c (Proc.devRef .tc main_arg7) by host_keeps).symm.trans
    (W9_of_ne m ρ c main_arg7 (by decide)).symm).trans
    (show W10 m ρ c (Proc.devRef .tc main_arg7) = W9 m ρ c (Proc.devRef .tc main_arg7) by host_keeps).symm).trans
    (W11_of_ne m ρ c main_arg7 (by decide)).symm).trans (W11_main_arg7 m ρ c)

theorem a6_at8 : W8 m ρ c (Proc.devRef .tc main_arg6) = (m ((c : Thread nD τ).loc main_arg6)) :=
  ((((W9_arr m ρ c 1).trans (((dat4 (V8 m ρ) c).arrAt_in 1 rfl _).trans (A_eq4 (V8 m ρ) c 1))).symm.trans
    (show W10 m ρ c (Proc.devRef .tc main_arg6) = W9 m ρ c (Proc.devRef .tc main_arg6) by host_keeps).symm).trans
    (W11_of_ne m ρ c main_arg6 (by decide)).symm).trans (W11_main_arg6 m ρ c)

/-! ## After the fourth host stretch (region 4's entry) -/

theorem z_at8 : W8 m ρ c (Proc.devRef .tc main_v58) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show W8 m ρ c (Proc.devRef .tc main_v58) = W7 m ρ c (Proc.devRef .tc main_v58) by host_keeps).trans (z_at7 m ρ c)

theorem brow3_at8 : W8 m ρ c (Proc.devRef .tc main_v59) = Cert.ReferenceIdeal.Read.val_main_v64 (F := Ideal) (m ((c : Thread nD τ).loc main_arg7)) := by
  show StableHlo.after hostOps4 (W7 m ρ c) (Proc.devRef .tc main_v59) = _
  simp only [hostOps4]
  after_results_simp
  rw [a7_at7]
  exact row64' _ _

/-! ## After region 4: the decoder's hidden layer `relu (z · Wd₁ + bd₁)` -/

theorem d_at9 : W9 m ρ c (Proc.devRef .tc main_v60) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W9_arr m ρ c 3).trans ((Cert.KernelIdeal.Region4.arr (V8 m ρ) c).trans (by
    show maximumf (F := Ideal) (addf (Host.dotGeneral (F := Ideal) (φ₁ := .f32) (φ₂ := .f32) Cert.ReferenceIdeal.dot_S50000x32_S32x64_S50000x64_1_0_0_1_n_n none (W8 m ρ c (Proc.devRef .tc main_v58)) (W8 m ρ c (Proc.devRef .tc main_arg6))) (broadcastInDim Cert.ReferenceIdeal.S50000x64 ![0, 1] Cert.ReferenceIdeal.Facts₀.bcast_S1x64_S50000x64_0_1 (W8 m ρ c (Proc.devRef .tc main_v59)))) _ = _
    rw [z_at8, a6_at8, brow3_at8]
    rfl))

/-! ## After the fifth host stretch (region 5's entry) -/

theorem d_at10 : W10 m ρ c (Proc.devRef .tc main_v60) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (show W10 m ρ c (Proc.devRef .tc main_v60) = W9 m ρ c (Proc.devRef .tc main_v60) by host_keeps).trans (d_at9 m ρ c)

theorem brow4_at10 : W10 m ρ c (Proc.devRef .tc main_v61) = Cert.ReferenceIdeal.Read.val_main_v69 (F := Ideal) (m ((c : Thread nD τ).loc main_arg9)) := by
  show StableHlo.after hostOps5 (W9 m ρ c) (Proc.devRef .tc main_v61) = _
  simp only [hostOps5]
  after_results_simp
  rw [a9_at9]
  exact row512 _ _

/-! ## After region 5: the reconstruction `sigmoid (d · Wd₂ + bd₂)`, the program's result -/

theorem out_at11 : W11 m ρ c (Proc.devRef .tc main_v62) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W11_arr m ρ c 3).trans ((Cert.KernelIdeal.Region5.arr (V10 m ρ) c).trans (by
    show Host.divf (F := Ideal) _ (addf _ (Host.exp (Host.negf (addf (Host.dotGeneral (F := Ideal) (φ₁ := .f32) (φ₂ := .f32) Cert.ReferenceIdeal.dot_S50000x64_S64x512_S50000x512_1_0_0_1_n_n none (W10 m ρ c (Proc.devRef .tc main_v60)) (W10 m ρ c (Proc.devRef .tc main_arg8))) (broadcastInDim Cert.ReferenceIdeal.S50000x512 ![0, 1] Cert.ReferenceIdeal.Facts₀.bcast_S1x512_S50000x512_0_1 (W10 m ρ c (Proc.devRef .tc main_v61))))))) = _
    rw [d_at10, a8_at10, brow4_at10]
    rfl))

end Cert.KernelIdeal.Fold

end
-- ==== Proof.lean ====
/-
  A two-layer graph-convolutional autoencoder over 50000 nodes and 1.6 million edges, its dense stages in six TensorCore
  kernels, against the plain array program.

  Both programs first append a self loop to every node, count each node's incoming messages, and give every message
  the coefficient `rsqrt (deg source) · rsqrt (deg target)`; a graph convolution of features `h` with weight `W` and bias
  `b` is then `relu (A (h · W) + b)`, where `A` gathers each message's source row of `h · W`, scales it by the
  message's coefficient and sums the messages into their target rows. The network is
  `z = conv (conv x W₁ b₁) W₂ b₂`, `d = relu (z · Wd₁ + bd₁)`, `out = sigmoid (d · Wd₂ + bd₂)`.

  The gather, the scaling and the scatter-add are the SAME host operations in both programs. What differs is the dense
  work: the kernel program computes each product `h · W` in ten row blocks of 5000 rows, after a change of float
  format that is the identity on the extended reals and into a zero accumulator, so every entry is the plain sum over
  the contracted axis that the host's `dot_general` is; it adds a bias as a one-row matrix spread over the block's rows
  where the reference spreads the bias over all rows; its `relu` is the same maximum with the zero word; and its
  logistic function is, on the extended reals, the expression `1 / (1 + exp (−y))` the reference spells out. The ten
  blocks of each kernel partition the 50000 rows, so each kernel's result array is the reference's operation on the
  arrays the kernel was entered with (the six region modules), and walking @main's twelve segment boundaries from the
  launch memory identifies the kernel program's result with the reference's, stage by stage (the fold module). No law
  of the extended reals beyond these identities is used, so the finiteness of the inputs is never opened.

  The frames of the two kernel programs are the generated launch of @main's segments; the reference's frame is its
  generated run with the result dropped. The idealization rewrote nothing, so `preserves` has nothing to state.
-/
import proofs.«116752_j31370441130067_1_alg».proof.Defs
import proofs.«116752_j31370441130067_1_alg».proof.Proof.Gen.Kernel
import proofs.«116752_j31370441130067_1_alg».proof.Proof.Gen.Kernel.Frame
import proofs.«116752_j31370441130067_1_alg».proof.Proof.Gen.KernelIdeal
import proofs.«116752_j31370441130067_1_alg».proof.Proof.Gen.KernelIdeal.Frame
import proofs.«116752_j31370441130067_1_alg».proof.Proof.Gen.ReferenceIdeal
import proofs.«116752_j31370441130067_1_alg».proof.Proof.Gen.ReferenceIdeal.Run
import proofs.«116752_j31370441130067_1_alg».proof.Proof.Gen.ReferenceIdeal.Read
import proofs.«116752_j31370441130067_1_alg».proof.Proof.Gen.Pre_finite_inputs
import proofs.«116752_j31370441130067_1_alg».proof.Proof.KernelRun
import proofs.«116752_j31370441130067_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the ten arguments both programs end with the reconstruction
    `sigmoid (relu (z · Wd₁ + bd₁) · Wd₂ + bd₂)` of the same arguments in their result arrays: the kernel program's
    result is the last boundary's contents of its result buffer, which the fold identifies with the reference's value. -/
theorem algebraic : Cert.algebraic_KernelIdeal_ReferenceIdeal := by
  intro m ρ m' ρ' _ hagree
  refine ⟨fun c => Cert.KernelIdeal.Gen.W11 m ρ c (Proc.devRef .tc Cert.KernelIdeal.main_v62),
    Cert.KernelIdeal.RunNamed.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v77_eq, e0, e1, e2, e3, e4, e5, e6, e7, e8, e9]
  exact (Cert.KernelIdeal.Fold.out_at11 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
